-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8000x16 : Shape := ⟨3, ![256, 8000, 16]⟩
abbrev S_ : Shape := ⟨0, ![]⟩

class Facts : Prop where
  bcast_S_S256x8000x16 : S_.BroadcastsInDim S256x8000x16 (![] : Fin 0 → Fin S256x8000x16.rank)
  reducesTo_S256x8000x16_S_d0_1_2 : S256x8000x16.ReducesTo [0, 1, 2] S_
  h_S_ : 0 < S_.numel

variable [Facts]

def fn {F : FTy → Type} [FloatOps F] (main_arg0 : FVec F S256x8000x16 .f32) : IVec S_ 1 :=
  let main_v0 : FVec F S256x8000x16 .f32 := Host.absf main_arg0
  let main_cst : FVec F S_ .f32 := constant S_ .f32 0x7F800000#32
  let main_v1 : FVec F S256x8000x16 .f32 := broadcastInDim S256x8000x16 ![] bcast_S_S256x8000x16 main_cst
  let main_v2 : IVec S256x8000x16 1 := cmpf .olt main_v0 main_v1
  let main_c : IVec S_ 1 := constantI S_ 1 1#1
  let main_v3 : IVec S_ 1 := (fun x v => Host.reduce IntOp.andi x v reducesTo_S256x8000x16_S_d0_1_2 h_S_) main_v2 main_c
  main_v3
-- ==== Kernel.lean ====
abbrev S256x8000x16 : Shape := ⟨3, ![256, 8000, 16]⟩
abbrev S2048000x16 : Shape := ⟨2, ![2048000, 16]⟩
abbrev S8192x16 : Shape := ⟨2, ![8192, 16]⟩
abbrev S16x8192 : Shape := ⟨2, ![16, 8192]⟩
abbrev S15x8192 : Shape := ⟨2, ![15, 8192]⟩
abbrev S1x8192 : Shape := ⟨2, ![1, 8192]⟩
abbrev S14x8192 : Shape := ⟨2, ![14, 8192]⟩
abbrev S2x8192 : Shape := ⟨2, ![2, 8192]⟩
abbrev S13x8192 : Shape := ⟨2, ![13, 8192]⟩
abbrev S3x8192 : Shape := ⟨2, ![3, 8192]⟩
abbrev S12x8192 : Shape := ⟨2, ![12, 8192]⟩
abbrev S4x8192 : Shape := ⟨2, ![4, 8192]⟩
abbrev S11x8192 : Shape := ⟨2, ![11, 8192]⟩
abbrev S5x8192 : Shape := ⟨2, ![5, 8192]⟩
abbrev S10x8192 : Shape := ⟨2, ![10, 8192]⟩
abbrev S6x8192 : Shape := ⟨2, ![6, 8192]⟩
abbrev S9x8192 : Shape := ⟨2, ![9, 8192]⟩
abbrev S7x8192 : Shape := ⟨2, ![7, 8192]⟩
abbrev S8x8192 : Shape := ⟨2, ![8, 8192]⟩

abbrev nBuf : Space → Nat
  | .hbm => 4
  | .vmem => 4
  | .smem => 0
  | _ => 0

abbrev bufTy : (tb : Table) → Fin (tcTables nBuf tb) → BufTy
  | .hbm, ⟨0, _⟩ => ⟨S256x8000x16, .f32⟩
  | .hbm, ⟨1, _⟩ => ⟨S2048000x16, .f32⟩
  | .hbm, ⟨2, _⟩ => ⟨S2048000x16, .f32⟩
  | .hbm, ⟨3, _⟩ => ⟨S256x8000x16, .f32⟩
  | .local _ .vmem, ⟨0, _⟩ => ⟨S8192x16, .f32⟩
  | .local _ .vmem, ⟨1, _⟩ => ⟨S8192x16, .f32⟩
  | .local _ .vmem, ⟨2, _⟩ => ⟨S8192x16, .f32⟩
  | .local _ .vmem, ⟨3, _⟩ => ⟨S8192x16, .f32⟩
  | _, _ => ⟨S256x8000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S256x8000x16_S2048000x16 : S256x8000x16.ShapeCasts S2048000x16
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  transposes_S8192x16_p1_0_S16x8192 : S8192x16.Transposes [1, 0] S16x8192
  slices_S16x8192_o0_0_S15x8192 : S16x8192.Slices ![0, 0] S15x8192
  slices_S16x8192_o15_0_S1x8192 : S16x8192.Slices ![15, 0] S1x8192
  slices_S15x8192_o14_0_S1x8192 : S15x8192.Slices ![14, 0] S1x8192
  slices_S15x8192_o13_0_S1x8192 : S15x8192.Slices ![13, 0] S1x8192
  slices_S15x8192_o12_0_S1x8192 : S15x8192.Slices ![12, 0] S1x8192
  slices_S15x8192_o11_0_S1x8192 : S15x8192.Slices ![11, 0] S1x8192
  slices_S15x8192_o10_0_S1x8192 : S15x8192.Slices ![10, 0] S1x8192
  slices_S15x8192_o9_0_S1x8192 : S15x8192.Slices ![9, 0] S1x8192
  slices_S15x8192_o8_0_S1x8192 : S15x8192.Slices ![8, 0] S1x8192
  slices_S15x8192_o7_0_S1x8192 : S15x8192.Slices ![7, 0] S1x8192
  slices_S15x8192_o6_0_S1x8192 : S15x8192.Slices ![6, 0] S1x8192
  slices_S15x8192_o5_0_S1x8192 : S15x8192.Slices ![5, 0] S1x8192
  slices_S15x8192_o4_0_S1x8192 : S15x8192.Slices ![4, 0] S1x8192
  slices_S15x8192_o3_0_S1x8192 : S15x8192.Slices ![3, 0] S1x8192
  slices_S15x8192_o2_0_S1x8192 : S15x8192.Slices ![2, 0] S1x8192
  slices_S15x8192_o1_0_S1x8192 : S15x8192.Slices ![1, 0] S1x8192
  slices_S15x8192_o0_0_S1x8192 : S15x8192.Slices ![0, 0] S1x8192
  concatenates_S1x8192_S1x8192_S1x8192_S1x8192_S1x8192_S1x8192_S1x8192_S1x8192_S1x8192_S1x8192_S1x8192_S1x8192_S1x8192_S1x8192_S1x8192_S15x8192_d0 : Shape.Concatenates [S1x8192, S1x8192, S1x8192, S1x8192, S1x8192, S1x8192, S1x8192, S1x8192, S1x8192, S1x8192, S1x8192, S1x8192, S1x8192, S1x8192, S1x8192] S15x8192 0
  broadcasts_S1x8192_S15x8192 : S1x8192.Broadcasts S15x8192
  concatenates_S15x8192_S1x8192_S16x8192_d0 : Shape.Concatenates [S15x8192, S1x8192] S16x8192 0
  slices_S16x8192_o0_0_S14x8192 : S16x8192.Slices ![0, 0] S14x8192
  slices_S16x8192_o14_0_S2x8192 : S16x8192.Slices ![14, 0] S2x8192
  slices_S2x8192_o0_0_S1x8192 : S2x8192.Slices ![0, 0] S1x8192
  slices_S14x8192_o13_0_S1x8192 : S14x8192.Slices ![13, 0] S1x8192
  slices_S14x8192_o12_0_S1x8192 : S14x8192.Slices ![12, 0] S1x8192
  slices_S14x8192_o11_0_S1x8192 : S14x8192.Slices ![11, 0] S1x8192
  slices_S14x8192_o10_0_S1x8192 : S14x8192.Slices ![10, 0] S1x8192
  slices_S14x8192_o9_0_S1x8192 : S14x8192.Slices ![9, 0] S1x8192
  slices_S14x8192_o8_0_S1x8192 : S14x8192.Slices ![8, 0] S1x8192
  slices_S14x8192_o7_0_S1x8192 : S14x8192.Slices ![7, 0] S1x8192
  slices_S14x8192_o6_0_S1x8192 : S14x8192.Slices ![6, 0] S1x8192
  slices_S14x8192_o5_0_S1x8192 : S14x8192.Slices ![5, 0] S1x8192
  slices_S14x8192_o4_0_S1x8192 : S14x8192.Slices ![4, 0] S1x8192
  slices_S14x8192_o3_0_S1x8192 : S14x8192.Slices ![3, 0] S1x8192
  slices_S14x8192_o2_0_S1x8192 : S14x8192.Slices ![2, 0] S1x8192
  slices_S14x8192_o1_0_S1x8192 : S14x8192.Slices ![1, 0] S1x8192
  slices_S14x8192_o0_0_S1x8192 : S14x8192.Slices ![0, 0] S1x8192
  concatenates_S1x8192_S1x8192_S1x8192_S1x8192_S1x8192_S1x8192_S1x8192_S1x8192_S1x8192_S1x8192_S1x8192_S1x8192_S1x8192_S1x8192_S14x8192_d0 : Shape.Concatenates [S1x8192, S1x8192, S1x8192, S1x8192, S1x8192, S1x8192, S1x8192, S1x8192, S1x8192, S1x8192, S1x8192, S1x8192, S1x8192, S1x8192] S14x8192 0
  broadcasts_S1x8192_S14x8192 : S1x8192.Broadcasts S14x8192
  concatenates_S14x8192_S2x8192_S16x8192_d0 : Shape.Concatenates [S14x8192, S2x8192] S16x8192 0
  slices_S16x8192_o0_0_S13x8192 : S16x8192.Slices ![0, 0] S13x8192
  slices_S16x8192_o13_0_S3x8192 : S16x8192.Slices ![13, 0] S3x8192
  slices_S3x8192_o0_0_S1x8192 : S3x8192.Slices ![0, 0] S1x8192
  slices_S13x8192_o12_0_S1x8192 : S13x8192.Slices ![12, 0] S1x8192
  slices_S13x8192_o11_0_S1x8192 : S13x8192.Slices ![11, 0] S1x8192
  slices_S13x8192_o10_0_S1x8192 : S13x8192.Slices ![10, 0] S1x8192
  slices_S13x8192_o9_0_S1x8192 : S13x8192.Slices ![9, 0] S1x8192
  slices_S13x8192_o8_0_S1x8192 : S13x8192.Slices ![8, 0] S1x8192
  slices_S13x8192_o7_0_S1x8192 : S13x8192.Slices ![7, 0] S1x8192
  slices_S13x8192_o6_0_S1x8192 : S13x8192.Slices ![6, 0] S1x8192
  slices_S13x8192_o5_0_S1x8192 : S13x8192.Slices ![5, 0] S1x8192
  slices_S13x8192_o4_0_S1x8192 : S13x8192.Slices ![4, 0] S1x8192
  slices_S13x8192_o3_0_S1x8192 : S13x8192.Slices ![3, 0] S1x8192
  slices_S13x8192_o2_0_S1x8192 : S13x8192.Slices ![2, 0] S1x8192
  slices_S13x8192_o1_0_S1x8192 : S13x8192.Slices ![1, 0] S1x8192
  slices_S13x8192_o0_0_S1x8192 : S13x8192.Slices ![0, 0] S1x8192
  concatenates_S1x8192_S1x8192_S1x8192_S1x8192_S1x8192_S1x8192_S1x8192_S1x8192_S1x8192_S1x8192_S1x8192_S1x8192_S1x8192_S13x8192_d0 : Shape.Concatenates [S1x8192, S1x8192, S1x8192, S1x8192, S1x8192, S1x8192, S1x8192, S1x8192, S1x8192, S1x8192, S1x8192, S1x8192, S1x8192] S13x8192 0
  broadcasts_S1x8192_S13x8192 : S1x8192.Broadcasts S13x8192
  concatenates_S13x8192_S3x8192_S16x8192_d0 : Shape.Concatenates [S13x8192, S3x8192] S16x8192 0
  slices_S16x8192_o0_0_S12x8192 : S16x8192.Slices ![0, 0] S12x8192
  slices_S16x8192_o12_0_S4x8192 : S16x8192.Slices ![12, 0] S4x8192
  slices_S4x8192_o0_0_S1x8192 : S4x8192.Slices ![0, 0] S1x8192
  slices_S12x8192_o11_0_S1x8192 : S12x8192.Slices ![11, 0] S1x8192
  slices_S12x8192_o10_0_S1x8192 : S12x8192.Slices ![10, 0] S1x8192
  slices_S12x8192_o9_0_S1x8192 : S12x8192.Slices ![9, 0] S1x8192
  slices_S12x8192_o8_0_S1x8192 : S12x8192.Slices ![8, 0] S1x8192
  slices_S12x8192_o7_0_S1x8192 : S12x8192.Slices ![7, 0] S1x8192
  slices_S12x8192_o6_0_S1x8192 : S12x8192.Slices ![6, 0] S1x8192
  slices_S12x8192_o5_0_S1x8192 : S12x8192.Slices ![5, 0] S1x8192
  slices_S12x8192_o4_0_S1x8192 : S12x8192.Slices ![4, 0] S1x8192
  slices_S12x8192_o3_0_S1x8192 : S12x8192.Slices ![3, 0] S1x8192
  slices_S12x8192_o2_0_S1x8192 : S12x8192.Slices ![2, 0] S1x8192
  slices_S12x8192_o1_0_S1x8192 : S12x8192.Slices ![1, 0] S1x8192
  slices_S12x8192_o0_0_S1x8192 : S12x8192.Slices ![0, 0] S1x8192
  concatenates_S1x8192_S1x8192_S1x8192_S1x8192_S1x8192_S1x8192_S1x8192_S1x8192_S1x8192_S1x8192_S1x8192_S1x8192_S12x8192_d0 : Shape.Concatenates [S1x8192, S1x8192, S1x8192, S1x8192, S1x8192, S1x8192, S1x8192, S1x8192, S1x8192, S1x8192, S1x8192, S1x8192] S12x8192 0
  broadcasts_S1x8192_S12x8192 : S1x8192.Broadcasts S12x8192
  concatenates_S12x8192_S4x8192_S16x8192_d0 : Shape.Concatenates [S12x8192, S4x8192] S16x8192 0
  slices_S16x8192_o0_0_S11x8192 : S16x8192.Slices ![0, 0] S11x8192
  slices_S16x8192_o11_0_S5x8192 : S16x8192.Slices ![11, 0] S5x8192
  slices_S5x8192_o0_0_S1x8192 : S5x8192.Slices ![0, 0] S1x8192
  slices_S11x8192_o10_0_S1x8192 : S11x8192.Slices ![10, 0] S1x8192
  slices_S11x8192_o9_0_S1x8192 : S11x8192.Slices ![9, 0] S1x8192
  slices_S11x8192_o8_0_S1x8192 : S11x8192.Slices ![8, 0] S1x8192
  slices_S11x8192_o7_0_S1x8192 : S11x8192.Slices ![7, 0] S1x8192
  slices_S11x8192_o6_0_S1x8192 : S11x8192.Slices ![6, 0] S1x8192
  slices_S11x8192_o5_0_S1x8192 : S11x8192.Slices ![5, 0] S1x8192
  slices_S11x8192_o4_0_S1x8192 : S11x8192.Slices ![4, 0] S1x8192
  slices_S11x8192_o3_0_S1x8192 : S11x8192.Slices ![3, 0] S1x8192
  slices_S11x8192_o2_0_S1x8192 : S11x8192.Slices ![2, 0] S1x8192
  slices_S11x8192_o1_0_S1x8192 : S11x8192.Slices ![1, 0] S1x8192
  slices_S11x8192_o0_0_S1x8192 : S11x8192.Slices ![0, 0] S1x8192
  concatenates_S1x8192_S1x8192_S1x8192_S1x8192_S1x8192_S1x8192_S1x8192_S1x8192_S1x8192_S1x8192_S1x8192_S11x8192_d0 : Shape.Concatenates [S1x8192, S1x8192, S1x8192, S1x8192, S1x8192, S1x8192, S1x8192, S1x8192, S1x8192, S1x8192, S1x8192] S11x8192 0
  broadcasts_S1x8192_S11x8192 : S1x8192.Broadcasts S11x8192
  concatenates_S11x8192_S5x8192_S16x8192_d0 : Shape.Concatenates [S11x8192, S5x8192] S16x8192 0
  slices_S16x8192_o0_0_S10x8192 : S16x8192.Slices ![0, 0] S10x8192
  slices_S16x8192_o10_0_S6x8192 : S16x8192.Slices ![10, 0] S6x8192
  slices_S6x8192_o0_0_S1x8192 : S6x8192.Slices ![0, 0] S1x8192
  slices_S10x8192_o9_0_S1x8192 : S10x8192.Slices ![9, 0] S1x8192
  slices_S10x8192_o8_0_S1x8192 : S10x8192.Slices ![8, 0] S1x8192
  slices_S10x8192_o7_0_S1x8192 : S10x8192.Slices ![7, 0] S1x8192
  slices_S10x8192_o6_0_S1x8192 : S10x8192.Slices ![6, 0] S1x8192
  slices_S10x8192_o5_0_S1x8192 : S10x8192.Slices ![5, 0] S1x8192
  slices_S10x8192_o4_0_S1x8192 : S10x8192.Slices ![4, 0] S1x8192
  slices_S10x8192_o3_0_S1x8192 : S10x8192.Slices ![3, 0] S1x8192
  slices_S10x8192_o2_0_S1x8192 : S10x8192.Slices ![2, 0] S1x8192
  slices_S10x8192_o1_0_S1x8192 : S10x8192.Slices ![1, 0] S1x8192
  slices_S10x8192_o0_0_S1x8192 : S10x8192.Slices ![0, 0] S1x8192
  concatenates_S1x8192_S1x8192_S1x8192_S1x8192_S1x8192_S1x8192_S1x8192_S1x8192_S1x8192_S1x8192_S10x8192_d0 : Shape.Concatenates [S1x8192, S1x8192, S1x8192, S1x8192, S1x8192, S1x8192, S1x8192, S1x8192, S1x8192, S1x8192] S10x8192 0
  broadcasts_S1x8192_S10x8192 : S1x8192.Broadcasts S10x8192
  concatenates_S10x8192_S6x8192_S16x8192_d0 : Shape.Concatenates [S10x8192, S6x8192] S16x8192 0
  slices_S16x8192_o0_0_S9x8192 : S16x8192.Slices ![0, 0] S9x8192
  slices_S16x8192_o9_0_S7x8192 : S16x8192.Slices ![9, 0] S7x8192
  slices_S7x8192_o0_0_S1x8192 : S7x8192.Slices ![0, 0] S1x8192
  slices_S9x8192_o8_0_S1x8192 : S9x8192.Slices ![8, 0] S1x8192
  slices_S9x8192_o7_0_S1x8192 : S9x8192.Slices ![7, 0] S1x8192
  slices_S9x8192_o6_0_S1x8192 : S9x8192.Slices ![6, 0] S1x8192
  slices_S9x8192_o5_0_S1x8192 : S9x8192.Slices ![5, 0] S1x8192
  slices_S9x8192_o4_0_S1x8192 : S9x8192.Slices ![4, 0] S1x8192
  slices_S9x8192_o3_0_S1x8192 : S9x8192.Slices ![3, 0] S1x8192
  slices_S9x8192_o2_0_S1x8192 : S9x8192.Slices ![2, 0] S1x8192
  slices_S9x8192_o1_0_S1x8192 : S9x8192.Slices ![1, 0] S1x8192
  slices_S9x8192_o0_0_S1x8192 : S9x8192.Slices ![0, 0] S1x8192
  concatenates_S1x8192_S1x8192_S1x8192_S1x8192_S1x8192_S1x8192_S1x8192_S1x8192_S1x8192_S9x8192_d0 : Shape.Concatenates [S1x8192, S1x8192, S1x8192, S1x8192, S1x8192, S1x8192, S1x8192, S1x8192, S1x8192] S9x8192 0
  broadcasts_S1x8192_S9x8192 : S1x8192.Broadcasts S9x8192
  concatenates_S9x8192_S7x8192_S16x8192_d0 : Shape.Concatenates [S9x8192, S7x8192] S16x8192 0
  slices_S16x8192_o0_0_S8x8192 : S16x8192.Slices ![0, 0] S8x8192
  slices_S16x8192_o8_0_S8x8192 : S16x8192.Slices ![8, 0] S8x8192
  slices_S8x8192_o0_0_S1x8192 : S8x8192.Slices ![0, 0] S1x8192
  slices_S8x8192_o7_0_S1x8192 : S8x8192.Slices ![7, 0] S1x8192
  slices_S8x8192_o6_0_S1x8192 : S8x8192.Slices ![6, 0] S1x8192
  slices_S8x8192_o5_0_S1x8192 : S8x8192.Slices ![5, 0] S1x8192
  slices_S8x8192_o4_0_S1x8192 : S8x8192.Slices ![4, 0] S1x8192
  slices_S8x8192_o3_0_S1x8192 : S8x8192.Slices ![3, 0] S1x8192
  slices_S8x8192_o2_0_S1x8192 : S8x8192.Slices ![2, 0] S1x8192
  slices_S8x8192_o1_0_S1x8192 : S8x8192.Slices ![1, 0] S1x8192
  concatenates_S1x8192_S1x8192_S1x8192_S1x8192_S1x8192_S1x8192_S1x8192_S1x8192_S8x8192_d0 : Shape.Concatenates [S1x8192, S1x8192, S1x8192, S1x8192, S1x8192, S1x8192, S1x8192, S1x8192] S8x8192 0
  broadcasts_S1x8192_S8x8192 : S1x8192.Broadcasts S8x8192
  concatenates_S8x8192_S8x8192_S16x8192_d0 : Shape.Concatenates [S8x8192, S8x8192] S16x8192 0
  slices_S16x8192_o0_0_S7x8192 : S16x8192.Slices ![0, 0] S7x8192
  slices_S16x8192_o7_0_S9x8192 : S16x8192.Slices ![7, 0] S9x8192
  slices_S7x8192_o6_0_S1x8192 : S7x8192.Slices ![6, 0] S1x8192
  slices_S7x8192_o5_0_S1x8192 : S7x8192.Slices ![5, 0] S1x8192
  slices_S7x8192_o4_0_S1x8192 : S7x8192.Slices ![4, 0] S1x8192
  slices_S7x8192_o3_0_S1x8192 : S7x8192.Slices ![3, 0] S1x8192
  slices_S7x8192_o2_0_S1x8192 : S7x8192.Slices ![2, 0] S1x8192
  slices_S7x8192_o1_0_S1x8192 : S7x8192.Slices ![1, 0] S1x8192
  concatenates_S1x8192_S1x8192_S1x8192_S1x8192_S1x8192_S1x8192_S1x8192_S7x8192_d0 : Shape.Concatenates [S1x8192, S1x8192, S1x8192, S1x8192, S1x8192, S1x8192, S1x8192] S7x8192 0
  broadcasts_S1x8192_S7x8192 : S1x8192.Broadcasts S7x8192
  concatenates_S7x8192_S9x8192_S16x8192_d0 : Shape.Concatenates [S7x8192, S9x8192] S16x8192 0
  slices_S16x8192_o0_0_S6x8192 : S16x8192.Slices ![0, 0] S6x8192
  slices_S16x8192_o6_0_S10x8192 : S16x8192.Slices ![6, 0] S10x8192
  slices_S6x8192_o5_0_S1x8192 : S6x8192.Slices ![5, 0] S1x8192
  slices_S6x8192_o4_0_S1x8192 : S6x8192.Slices ![4, 0] S1x8192
  slices_S6x8192_o3_0_S1x8192 : S6x8192.Slices ![3, 0] S1x8192
  slices_S6x8192_o2_0_S1x8192 : S6x8192.Slices ![2, 0] S1x8192
  slices_S6x8192_o1_0_S1x8192 : S6x8192.Slices ![1, 0] S1x8192
  concatenates_S1x8192_S1x8192_S1x8192_S1x8192_S1x8192_S1x8192_S6x8192_d0 : Shape.Concatenates [S1x8192, S1x8192, S1x8192, S1x8192, S1x8192, S1x8192] S6x8192 0
  broadcasts_S1x8192_S6x8192 : S1x8192.Broadcasts S6x8192
  concatenates_S6x8192_S10x8192_S16x8192_d0 : Shape.Concatenates [S6x8192, S10x8192] S16x8192 0
  slices_S16x8192_o0_0_S5x8192 : S16x8192.Slices ![0, 0] S5x8192
  slices_S16x8192_o5_0_S11x8192 : S16x8192.Slices ![5, 0] S11x8192
  slices_S5x8192_o4_0_S1x8192 : S5x8192.Slices ![4, 0] S1x8192
  slices_S5x8192_o3_0_S1x8192 : S5x8192.Slices ![3, 0] S1x8192
  slices_S5x8192_o2_0_S1x8192 : S5x8192.Slices ![2, 0] S1x8192
  slices_S5x8192_o1_0_S1x8192 : S5x8192.Slices ![1, 0] S1x8192
  concatenates_S1x8192_S1x8192_S1x8192_S1x8192_S1x8192_S5x8192_d0 : Shape.Concatenates [S1x8192, S1x8192, S1x8192, S1x8192, S1x8192] S5x8192 0
  broadcasts_S1x8192_S5x8192 : S1x8192.Broadcasts S5x8192
  concatenates_S5x8192_S11x8192_S16x8192_d0 : Shape.Concatenates [S5x8192, S11x8192] S16x8192 0
  slices_S16x8192_o0_0_S4x8192 : S16x8192.Slices ![0, 0] S4x8192
  slices_S16x8192_o4_0_S12x8192 : S16x8192.Slices ![4, 0] S12x8192
  slices_S4x8192_o3_0_S1x8192 : S4x8192.Slices ![3, 0] S1x8192
  slices_S4x8192_o2_0_S1x8192 : S4x8192.Slices ![2, 0] S1x8192
  slices_S4x8192_o1_0_S1x8192 : S4x8192.Slices ![1, 0] S1x8192
  concatenates_S1x8192_S1x8192_S1x8192_S1x8192_S4x8192_d0 : Shape.Concatenates [S1x8192, S1x8192, S1x8192, S1x8192] S4x8192 0
  broadcasts_S1x8192_S4x8192 : S1x8192.Broadcasts S4x8192
  concatenates_S4x8192_S12x8192_S16x8192_d0 : Shape.Concatenates [S4x8192, S12x8192] S16x8192 0
  slices_S16x8192_o0_0_S3x8192 : S16x8192.Slices ![0, 0] S3x8192
  slices_S16x8192_o3_0_S13x8192 : S16x8192.Slices ![3, 0] S13x8192
  slices_S3x8192_o2_0_S1x8192 : S3x8192.Slices ![2, 0] S1x8192
  slices_S3x8192_o1_0_S1x8192 : S3x8192.Slices ![1, 0] S1x8192
  concatenates_S1x8192_S1x8192_S1x8192_S3x8192_d0 : Shape.Concatenates [S1x8192, S1x8192, S1x8192] S3x8192 0
  broadcasts_S1x8192_S3x8192 : S1x8192.Broadcasts S3x8192
  concatenates_S3x8192_S13x8192_S16x8192_d0 : Shape.Concatenates [S3x8192, S13x8192] S16x8192 0
  slices_S16x8192_o0_0_S2x8192 : S16x8192.Slices ![0, 0] S2x8192
  slices_S16x8192_o2_0_S14x8192 : S16x8192.Slices ![2, 0] S14x8192
  slices_S2x8192_o1_0_S1x8192 : S2x8192.Slices ![1, 0] S1x8192
  concatenates_S1x8192_S1x8192_S2x8192_d0 : Shape.Concatenates [S1x8192, S1x8192] S2x8192 0
  broadcasts_S1x8192_S2x8192 : S1x8192.Broadcasts S2x8192
  concatenates_S2x8192_S14x8192_S16x8192_d0 : Shape.Concatenates [S2x8192, S14x8192] S16x8192 0
  slices_S16x8192_o0_0_S1x8192 : S16x8192.Slices ![0, 0] S1x8192
  slices_S16x8192_o1_0_S15x8192 : S16x8192.Slices ![1, 0] S15x8192
  concatenates_S1x8192_S15x8192_S16x8192_d0 : Shape.Concatenates [S1x8192, S15x8192] S16x8192 0
  transposes_S16x8192_p1_0_S8192x16 : S16x8192.Transposes [1, 0] S8192x16
  shapeCasts_S2048000x16_S256x8000x16 : S2048000x16.ShapeCasts S256x8000x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x16.size a ≤ S2048000x16.size a
  hwx0_0 : ∀ i : grid0.Coords, EltTy.bits .f32 = 32 ∨ (Rect.block (s := S2048000x16) S8192x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S2048000x16.size a
  hwx0_1 : ∀ i : grid0.Coords, EltTy.bits .f32 = 32 ∨ (Rect.block (s := S2048000x16) S8192x16.size (cc0_transform_1 i) (hinb0_1 i)).WholeWords (EltTy.packing .f32)

variable [Facts₀]

abbrev win0_0 : Pipeline.Window sig grid0 :=
  Pipeline.Window.ofSpec (Memref.whole main_v0) S8192x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S256x8000x16 : Shape := ⟨3, ![256, 8000, 16]⟩
abbrev S256x8000x15 : Shape := ⟨3, ![256, 8000, 15]⟩
abbrev S256x8000x1 : Shape := ⟨3, ![256, 8000, 1]⟩
abbrev S_ : Shape := ⟨0, ![]⟩
abbrev S256x8000x14 : Shape := ⟨3, ![256, 8000, 14]⟩
abbrev S256x8000x2 : Shape := ⟨3, ![256, 8000, 2]⟩
abbrev S256x8000x13 : Shape := ⟨3, ![256, 8000, 13]⟩
abbrev S256x8000x3 : Shape := ⟨3, ![256, 8000, 3]⟩
abbrev S256x8000x12 : Shape := ⟨3, ![256, 8000, 12]⟩
abbrev S256x8000x4 : Shape := ⟨3, ![256, 8000, 4]⟩
abbrev S256x8000x11 : Shape := ⟨3, ![256, 8000, 11]⟩
abbrev S256x8000x5 : Shape := ⟨3, ![256, 8000, 5]⟩
abbrev S256x8000x10 : Shape := ⟨3, ![256, 8000, 10]⟩
abbrev S256x8000x6 : Shape := ⟨3, ![256, 8000, 6]⟩
abbrev S256x8000x9 : Shape := ⟨3, ![256, 8000, 9]⟩
abbrev S256x8000x7 : Shape := ⟨3, ![256, 8000, 7]⟩
abbrev S256x8000x8 : Shape := ⟨3, ![256, 8000, 8]⟩

abbrev nBuf : Space → Nat
  | .hbm => 208
  | .vmem => 0
  | .smem => 0
  | _ => 0

abbrev hbmTy0_0 (i : Nat) : BufTy := match i % 128 with
  | 0 => ⟨S256x8000x16, .f32⟩
  | 1 => ⟨S256x8000x15, .f32⟩
  | 2 => ⟨S256x8000x1, .f32⟩
  | 3 => ⟨S256x8000x15, .f32⟩
  | 4 => ⟨S256x8000x15, .f32⟩
  | 5 => ⟨S256x8000x15, .f32⟩
  | 6 => ⟨S256x8000x15, .f32⟩
  | 7 => ⟨S256x8000x1, .f32⟩
  | 8 => ⟨S_, .f32⟩
  | 9 => ⟨S256x8000x1, .f32⟩
  | 10 => ⟨S256x8000x1, .f32⟩
  | 11 => ⟨S256x8000x15, .f32⟩
  | 12 => ⟨S256x8000x15, .f32⟩
  | 13 => ⟨S256x8000x16, .f32⟩
  | 14 => ⟨S256x8000x14, .f32⟩
  | 15 => ⟨S256x8000x2, .f32⟩
  | 16 => ⟨S256x8000x1, .f32⟩
  | 17 => ⟨S256x8000x14, .f32⟩
  | 18 => ⟨S256x8000x14, .f32⟩
  | 19 => ⟨S256x8000x14, .f32⟩
  | 20 => ⟨S256x8000x14, .f32⟩
  | 21 => ⟨S256x8000x1, .f32⟩
  | 22 => ⟨S_, .f32⟩
  | 23 => ⟨S256x8000x1, .f32⟩
  | 24 => ⟨S256x8000x1, .f32⟩
  | 25 => ⟨S256x8000x14, .f32⟩
  | 26 => ⟨S256x8000x14, .f32⟩
  | 27 => ⟨S256x8000x16, .f32⟩
  | 28 => ⟨S256x8000x13, .f32⟩
  | 29 => ⟨S256x8000x3, .f32⟩
  | 30 => ⟨S256x8000x1, .f32⟩
  | 31 => ⟨S256x8000x13, .f32⟩
  | 32 => ⟨S256x8000x13, .f32⟩
  | 33 => ⟨S256x8000x13, .f32⟩
  | 34 => ⟨S256x8000x13, .f32⟩
  | 35 => ⟨S256x8000x1, .f32⟩
  | 36 => ⟨S_, .f32⟩
  | 37 => ⟨S256x8000x1, .f32⟩
  | 38 => ⟨S256x8000x1, .f32⟩
  | 39 => ⟨S256x8000x13, .f32⟩
  | 40 => ⟨S256x8000x13, .f32⟩
  | 41 => ⟨S256x8000x16, .f32⟩
  | 42 => ⟨S256x8000x12, .f32⟩
  | 43 => ⟨S256x8000x4, .f32⟩
  | 44 => ⟨S256x8000x1, .f32⟩
  | 45 => ⟨S256x8000x12, .f32⟩
  | 46 => ⟨S256x8000x12, .f32⟩
  | 47 => ⟨S256x8000x12, .f32⟩
  | 48 => ⟨S256x8000x12, .f32⟩
  | 49 => ⟨S256x8000x1, .f32⟩
  | 50 => ⟨S_, .f32⟩
  | 51 => ⟨S256x8000x1, .f32⟩
  | 52 => ⟨S256x8000x1, .f32⟩
  | 53 => ⟨S256x8000x12, .f32⟩
  | 54 => ⟨S256x8000x12, .f32⟩
  | 55 => ⟨S256x8000x16, .f32⟩
  | 56 => ⟨S256x8000x11, .f32⟩
  | 57 => ⟨S256x8000x5, .f32⟩
  | 58 => ⟨S256x8000x1, .f32⟩
  | 59 => ⟨S256x8000x11, .f32⟩
  | 60 => ⟨S256x8000x11, .f32⟩
  | 61 => ⟨S256x8000x11, .f32⟩
  | 62 => ⟨S256x8000x11, .f32⟩
  | 63 => ⟨S256x8000x1, .f32⟩
  | 64 => ⟨S_, .f32⟩
  | 65 => ⟨S256x8000x1, .f32⟩
  | 66 => ⟨S256x8000x1, .f32⟩
  | 67 => ⟨S256x8000x11, .f32⟩
  | 68 => ⟨S256x8000x11, .f32⟩
  | 69 => ⟨S256x8000x16, .f32⟩
  | 70 => ⟨S256x8000x10, .f32⟩
  | 71 => ⟨S256x8000x6, .f32⟩
  | 72 => ⟨S256x8000x1, .f32⟩
  | 73 => ⟨S256x8000x10, .f32⟩
  | 74 => ⟨S256x8000x10, .f32⟩
  | 75 => ⟨S256x8000x10, .f32⟩
  | 76 => ⟨S256x8000x10, .f32⟩
  | 77 => ⟨S256x8000x1, .f32⟩
  | 78 => ⟨S_, .f32⟩
  | 79 => ⟨S256x8000x1, .f32⟩
  | 80 => ⟨S256x8000x1, .f32⟩
  | 81 => ⟨S256x8000x10, .f32⟩
  | 82 => ⟨S256x8000x10, .f32⟩
  | 83 => ⟨S256x8000x16, .f32⟩
  | 84 => ⟨S256x8000x9, .f32⟩
  | 85 => ⟨S256x8000x7, .f32⟩
  | 86 => ⟨S256x8000x1, .f32⟩
  | 87 => ⟨S256x8000x9, .f32⟩
  | 88 => ⟨S256x8000x9, .f32⟩
  | 89 => ⟨S256x8000x9, .f32⟩
  | 90 => ⟨S256x8000x9, .f32⟩
  | 91 => ⟨S256x8000x1, .f32⟩
  | 92 => ⟨S_, .f32⟩
  | 93 => ⟨S256x8000x1, .f32⟩
  | 94 => ⟨S256x8000x1, .f32⟩
  | 95 => ⟨S256x8000x9, .f32⟩
  | 96 => ⟨S256x8000x9, .f32⟩
  | 97 => ⟨S256x8000x16, .f32⟩
  | 98 => ⟨S256x8000x8, .f32⟩
  | 99 => ⟨S256x8000x8, .f32⟩
  | 100 => ⟨S256x8000x1, .f32⟩
  | 101 => ⟨S256x8000x8, .f32⟩
  | 102 => ⟨S256x8000x8, .f32⟩
  | 103 => ⟨S256x8000x8, .f32⟩
  | 104 => ⟨S256x8000x8, .f32⟩
  | 105 => ⟨S256x8000x1, .f32⟩
  | 106 => ⟨S_, .f32⟩
  | 107 => ⟨S256x8000x1, .f32⟩
  | 108 => ⟨S256x8000x1, .f32⟩
  | 109 => ⟨S256x8000x8, .f32⟩
  | 110 => ⟨S256x8000x8, .f32⟩
  | 111 => ⟨S256x8000x16, .f32⟩
  | 112 => ⟨S256x8000x7, .f32⟩
  | 113 => ⟨S256x8000x9, .f32⟩
  | 114 => ⟨S256x8000x1, .f32⟩
  | 115 => ⟨S256x8000x7, .f32⟩
  | 116 => ⟨S256x8000x7, .f32⟩
  | 117 => ⟨S256x8000x7, .f32⟩
  | 118 => ⟨S256x8000x7, .f32⟩
  | 119 => ⟨S256x8000x1, .f32⟩
  | 120 => ⟨S_, .f32⟩
  | 121 => ⟨S256x8000x1, .f32⟩
  | 122 => ⟨S256x8000x1, .f32⟩
  | 123 => ⟨S256x8000x7, .f32⟩
  | 124 => ⟨S256x8000x7, .f32⟩
  | 125 => ⟨S256x8000x16, .f32⟩
  | 126 => ⟨S256x8000x6, .f32⟩
  | 127 => ⟨S256x8000x10, .f32⟩
  | _ => ⟨S256x8000x16, .f32⟩

abbrev hbmTy0_1 (i : Nat) : BufTy := match i % 128 with
  | 0 => ⟨S256x8000x1, .f32⟩
  | 1 => ⟨S256x8000x6, .f32⟩
  | 2 => ⟨S256x8000x6, .f32⟩
  | 3 => ⟨S256x8000x6, .f32⟩
  | 4 => ⟨S256x8000x6, .f32⟩
  | 5 => ⟨S256x8000x1, .f32⟩
  | 6 => ⟨S_, .f32⟩
  | 7 => ⟨S256x8000x1, .f32⟩
  | 8 => ⟨S256x8000x1, .f32⟩
  | 9 => ⟨S256x8000x6, .f32⟩
  | 10 => ⟨S256x8000x6, .f32⟩
  | 11 => ⟨S256x8000x16, .f32⟩
  | 12 => ⟨S256x8000x5, .f32⟩
  | 13 => ⟨S256x8000x11, .f32⟩
  | 14 => ⟨S256x8000x1, .f32⟩
  | 15 => ⟨S256x8000x5, .f32⟩
  | 16 => ⟨S256x8000x5, .f32⟩
  | 17 => ⟨S256x8000x5, .f32⟩
  | 18 => ⟨S256x8000x5, .f32⟩
  | 19 => ⟨S256x8000x1, .f32⟩
  | 20 => ⟨S_, .f32⟩
  | 21 => ⟨S256x8000x1, .f32⟩
  | 22 => ⟨S256x8000x1, .f32⟩
  | 23 => ⟨S256x8000x5, .f32⟩
  | 24 => ⟨S256x8000x5, .f32⟩
  | 25 => ⟨S256x8000x16, .f32⟩
  | 26 => ⟨S256x8000x4, .f32⟩
  | 27 => ⟨S256x8000x12, .f32⟩
  | 28 => ⟨S256x8000x1, .f32⟩
  | 29 => ⟨S256x8000x4, .f32⟩
  | 30 => ⟨S256x8000x4, .f32⟩
  | 31 => ⟨S256x8000x4, .f32⟩
  | 32 => ⟨S256x8000x4, .f32⟩
  | 33 => ⟨S256x8000x1, .f32⟩
  | 34 => ⟨S_, .f32⟩
  | 35 => ⟨S256x8000x1, .f32⟩
  | 36 => ⟨S256x8000x1, .f32⟩
  | 37 => ⟨S256x8000x4, .f32⟩
  | 38 => ⟨S256x8000x4, .f32⟩
  | 39 => ⟨S256x8000x16, .f32⟩
  | 40 => ⟨S256x8000x3, .f32⟩
  | 41 => ⟨S256x8000x13, .f32⟩
  | 42 => ⟨S256x8000x1, .f32⟩
  | 43 => ⟨S256x8000x3, .f32⟩
  | 44 => ⟨S256x8000x3, .f32⟩
  | 45 => ⟨S256x8000x3, .f32⟩
  | 46 => ⟨S256x8000x3, .f32⟩
  | 47 => ⟨S256x8000x1, .f32⟩
  | 48 => ⟨S_, .f32⟩
  | 49 => ⟨S256x8000x1, .f32⟩
  | 50 => ⟨S256x8000x1, .f32⟩
  | 51 => ⟨S256x8000x3, .f32⟩
  | 52 => ⟨S256x8000x3, .f32⟩
  | 53 => ⟨S256x8000x16, .f32⟩
  | 54 => ⟨S256x8000x2, .f32⟩
  | 55 => ⟨S256x8000x14, .f32⟩
  | 56 => ⟨S256x8000x1, .f32⟩
  | 57 => ⟨S256x8000x2, .f32⟩
  | 58 => ⟨S256x8000x2, .f32⟩
  | 59 => ⟨S256x8000x2, .f32⟩
  | 60 => ⟨S256x8000x2, .f32⟩
  | 61 => ⟨S256x8000x1, .f32⟩
  | 62 => ⟨S_, .f32⟩
  | 63 => ⟨S256x8000x1, .f32⟩
  | 64 => ⟨S256x8000x1, .f32⟩
  | 65 => ⟨S256x8000x2, .f32⟩
  | 66 => ⟨S256x8000x2, .f32⟩
  | 67 => ⟨S256x8000x16, .f32⟩
  | 68 => ⟨S256x8000x1, .f32⟩
  | 69 => ⟨S256x8000x15, .f32⟩
  | 70 => ⟨S256x8000x1, .f32⟩
  | 71 => ⟨S256x8000x1, .f32⟩
  | 72 => ⟨S256x8000x1, .f32⟩
  | 73 => ⟨S256x8000x1, .f32⟩
  | 74 => ⟨S256x8000x1, .f32⟩
  | 75 => ⟨S_, .f32⟩
  | 76 => ⟨S256x8000x1, .f32⟩
  | 77 => ⟨S256x8000x1, .f32⟩
  | 78 => ⟨S256x8000x1, .f32⟩
  | 79 => ⟨S256x8000x16, .f32⟩
  | _ => ⟨S256x8000x16, .f32⟩

abbrev hbmTy (i : Nat) : BufTy := match i / 128 with
  | 0 => hbmTy0_0 i
  | 1 => hbmTy0_1 i
  | _ => ⟨S256x8000x16, .f32⟩

abbrev bufTy : (tb : Table) → Fin (tcTables nBuf tb) → BufTy
  | .hbm, ⟨i, _⟩ => hbmTy i
  | _, _ => ⟨S256x8000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_1 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_cst_2 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_3 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_cst_4 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_cst_5 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_cst_6 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_cst_7 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_cst_8 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_cst_9 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_cst_10 : Ref sig .tc := ⟨.hbm, 162, rfl⟩
abbrev main_v150 : Ref sig .tc := ⟨.hbm, 163, rfl⟩
abbrev main_v151 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_cst_11 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_cst_12 : Ref sig .tc := ⟨.hbm, 190, rfl⟩
abbrev main_v176 : Ref sig .tc := ⟨.hbm, 191, rfl⟩
abbrev main_v177 : Ref sig .tc := ⟨.hbm, 192, rfl⟩
abbrev main_v178 : Ref sig .tc := ⟨.hbm, 193, rfl⟩
abbrev main_v179 : Ref sig .tc := ⟨.hbm, 194, rfl⟩
abbrev main_v180 : Ref sig .tc := ⟨.hbm, 195, rfl⟩
abbrev main_v181 : Ref sig .tc := ⟨.hbm, 196, rfl⟩
abbrev main_v182 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_cst_13 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩

abbrev nD : Nat := 1
abbrev τ : Topo := Topo.v7x

variable {F : FTy → Type} [FloatOps F]

class Facts₀ : Prop where
  slices_S256x8000x16_S256x8000x15_0_0_0 : S256x8000x16.Slices ![0, 0, 0] S256x8000x15
  slices_S256x8000x16_S256x8000x1_0_0_15 : S256x8000x16.Slices ![0, 0, 15] S256x8000x1
  bcast_S256x8000x1_S256x8000x15_0_1_2 : S256x8000x1.BroadcastsInDim S256x8000x15 (![0, 1, 2] : Fin 3 → Fin S256x8000x15.rank)
  bcast_S_S256x8000x1 : S_.BroadcastsInDim S256x8000x1 (![] : Fin 0 → Fin S256x8000x1.rank)
  concatenates_S256x8000x15_S256x8000x1_S256x8000x16_d2 : Shape.Concatenates [S256x8000x15, S256x8000x1] S256x8000x16 2
  slices_S256x8000x16_S256x8000x14_0_0_0 : S256x8000x16.Slices ![0, 0, 0] S256x8000x14
  slices_S256x8000x16_S256x8000x2_0_0_14 : S256x8000x16.Slices ![0, 0, 14] S256x8000x2
  slices_S256x8000x2_S256x8000x1_0_0_0 : S256x8000x2.Slices ![0, 0, 0] S256x8000x1
  bcast_S256x8000x1_S256x8000x14_0_1_2 : S256x8000x1.BroadcastsInDim S256x8000x14 (![0, 1, 2] : Fin 3 → Fin S256x8000x14.rank)
  concatenates_S256x8000x14_S256x8000x2_S256x8000x16_d2 : Shape.Concatenates [S256x8000x14, S256x8000x2] S256x8000x16 2
  slices_S256x8000x16_S256x8000x13_0_0_0 : S256x8000x16.Slices ![0, 0, 0] S256x8000x13
  slices_S256x8000x16_S256x8000x3_0_0_13 : S256x8000x16.Slices ![0, 0, 13] S256x8000x3
  slices_S256x8000x3_S256x8000x1_0_0_0 : S256x8000x3.Slices ![0, 0, 0] S256x8000x1
  bcast_S256x8000x1_S256x8000x13_0_1_2 : S256x8000x1.BroadcastsInDim S256x8000x13 (![0, 1, 2] : Fin 3 → Fin S256x8000x13.rank)
  concatenates_S256x8000x13_S256x8000x3_S256x8000x16_d2 : Shape.Concatenates [S256x8000x13, S256x8000x3] S256x8000x16 2
  slices_S256x8000x16_S256x8000x12_0_0_0 : S256x8000x16.Slices ![0, 0, 0] S256x8000x12
  slices_S256x8000x16_S256x8000x4_0_0_12 : S256x8000x16.Slices ![0, 0, 12] S256x8000x4
  slices_S256x8000x4_S256x8000x1_0_0_0 : S256x8000x4.Slices ![0, 0, 0] S256x8000x1
  bcast_S256x8000x1_S256x8000x12_0_1_2 : S256x8000x1.BroadcastsInDim S256x8000x12 (![0, 1, 2] : Fin 3 → Fin S256x8000x12.rank)
  concatenates_S256x8000x12_S256x8000x4_S256x8000x16_d2 : Shape.Concatenates [S256x8000x12, S256x8000x4] S256x8000x16 2
  slices_S256x8000x16_S256x8000x11_0_0_0 : S256x8000x16.Slices ![0, 0, 0] S256x8000x11
  slices_S256x8000x16_S256x8000x5_0_0_11 : S256x8000x16.Slices ![0, 0, 11] S256x8000x5
  slices_S256x8000x5_S256x8000x1_0_0_0 : S256x8000x5.Slices ![0, 0, 0] S256x8000x1
  bcast_S256x8000x1_S256x8000x11_0_1_2 : S256x8000x1.BroadcastsInDim S256x8000x11 (![0, 1, 2] : Fin 3 → Fin S256x8000x11.rank)
  concatenates_S256x8000x11_S256x8000x5_S256x8000x16_d2 : Shape.Concatenates [S256x8000x11, S256x8000x5] S256x8000x16 2
  slices_S256x8000x16_S256x8000x10_0_0_0 : S256x8000x16.Slices ![0, 0, 0] S256x8000x10
  slices_S256x8000x16_S256x8000x6_0_0_10 : S256x8000x16.Slices ![0, 0, 10] S256x8000x6
  slices_S256x8000x6_S256x8000x1_0_0_0 : S256x8000x6.Slices ![0, 0, 0] S256x8000x1
  bcast_S256x8000x1_S256x8000x10_0_1_2 : S256x8000x1.BroadcastsInDim S256x8000x10 (![0, 1, 2] : Fin 3 → Fin S256x8000x10.rank)
  concatenates_S256x8000x10_S256x8000x6_S256x8000x16_d2 : Shape.Concatenates [S256x8000x10, S256x8000x6] S256x8000x16 2
  slices_S256x8000x16_S256x8000x9_0_0_0 : S256x8000x16.Slices ![0, 0, 0] S256x8000x9
  slices_S256x8000x16_S256x8000x7_0_0_9 : S256x8000x16.Slices ![0, 0, 9] S256x8000x7
  slices_S256x8000x7_S256x8000x1_0_0_0 : S256x8000x7.Slices ![0, 0, 0] S256x8000x1
  bcast_S256x8000x1_S256x8000x9_0_1_2 : S256x8000x1.BroadcastsInDim S256x8000x9 (![0, 1, 2] : Fin 3 → Fin S256x8000x9.rank)
  concatenates_S256x8000x9_S256x8000x7_S256x8000x16_d2 : Shape.Concatenates [S256x8000x9, S256x8000x7] S256x8000x16 2
  slices_S256x8000x16_S256x8000x8_0_0_0 : S256x8000x16.Slices ![0, 0, 0] S256x8000x8
  slices_S256x8000x16_S256x8000x8_0_0_8 : S256x8000x16.Slices ![0, 0, 8] S256x8000x8
  slices_S256x8000x8_S256x8000x1_0_0_0 : S256x8000x8.Slices ![0, 0, 0] S256x8000x1
  bcast_S256x8000x1_S256x8000x8_0_1_2 : S256x8000x1.BroadcastsInDim S256x8000x8 (![0, 1, 2] : Fin 3 → Fin S256x8000x8.rank)
  concatenates_S256x8000x8_S256x8000x8_S256x8000x16_d2 : Shape.Concatenates [S256x8000x8, S256x8000x8] S256x8000x16 2
  slices_S256x8000x16_S256x8000x7_0_0_0 : S256x8000x16.Slices ![0, 0, 0] S256x8000x7
  slices_S256x8000x16_S256x8000x9_0_0_7 : S256x8000x16.Slices ![0, 0, 7] S256x8000x9
  slices_S256x8000x9_S256x8000x1_0_0_0 : S256x8000x9.Slices ![0, 0, 0] S256x8000x1
  bcast_S256x8000x1_S256x8000x7_0_1_2 : S256x8000x1.BroadcastsInDim S256x8000x7 (![0, 1, 2] : Fin 3 → Fin S256x8000x7.rank)
  concatenates_S256x8000x7_S256x8000x9_S256x8000x16_d2 : Shape.Concatenates [S256x8000x7, S256x8000x9] S256x8000x16 2
  slices_S256x8000x16_S256x8000x6_0_0_0 : S256x8000x16.Slices ![0, 0, 0] S256x8000x6
  slices_S256x8000x16_S256x8000x10_0_0_6 : S256x8000x16.Slices ![0, 0, 6] S256x8000x10
  slices_S256x8000x10_S256x8000x1_0_0_0 : S256x8000x10.Slices ![0, 0, 0] S256x8000x1
  bcast_S256x8000x1_S256x8000x6_0_1_2 : S256x8000x1.BroadcastsInDim S256x8000x6 (![0, 1, 2] : Fin 3 → Fin S256x8000x6.rank)
  concatenates_S256x8000x6_S256x8000x10_S256x8000x16_d2 : Shape.Concatenates [S256x8000x6, S256x8000x10] S256x8000x16 2
  slices_S256x8000x16_S256x8000x5_0_0_0 : S256x8000x16.Slices ![0, 0, 0] S256x8000x5
  slices_S256x8000x16_S256x8000x11_0_0_5 : S256x8000x16.Slices ![0, 0, 5] S256x8000x11
  slices_S256x8000x11_S256x8000x1_0_0_0 : S256x8000x11.Slices ![0, 0, 0] S256x8000x1
  bcast_S256x8000x1_S256x8000x5_0_1_2 : S256x8000x1.BroadcastsInDim S256x8000x5 (![0, 1, 2] : Fin 3 → Fin S256x8000x5.rank)
  concatenates_S256x8000x5_S256x8000x11_S256x8000x16_d2 : Shape.Concatenates [S256x8000x5, S256x8000x11] S256x8000x16 2
  slices_S256x8000x16_S256x8000x4_0_0_0 : S256x8000x16.Slices ![0, 0, 0] S256x8000x4
  slices_S256x8000x16_S256x8000x12_0_0_4 : S256x8000x16.Slices ![0, 0, 4] S256x8000x12
  slices_S256x8000x12_S256x8000x1_0_0_0 : S256x8000x12.Slices ![0, 0, 0] S256x8000x1
  bcast_S256x8000x1_S256x8000x4_0_1_2 : S256x8000x1.BroadcastsInDim S256x8000x4 (![0, 1, 2] : Fin 3 → Fin S256x8000x4.rank)
  concatenates_S256x8000x4_S256x8000x12_S256x8000x16_d2 : Shape.Concatenates [S256x8000x4, S256x8000x12] S256x8000x16 2
  slices_S256x8000x16_S256x8000x3_0_0_0 : S256x8000x16.Slices ![0, 0, 0] S256x8000x3
  slices_S256x8000x16_S256x8000x13_0_0_3 : S256x8000x16.Slices ![0, 0, 3] S256x8000x13
  slices_S256x8000x13_S256x8000x1_0_0_0 : S256x8000x13.Slices ![0, 0, 0] S256x8000x1
  bcast_S256x8000x1_S256x8000x3_0_1_2 : S256x8000x1.BroadcastsInDim S256x8000x3 (![0, 1, 2] : Fin 3 → Fin S256x8000x3.rank)
  concatenates_S256x8000x3_S256x8000x13_S256x8000x16_d2 : Shape.Concatenates [S256x8000x3, S256x8000x13] S256x8000x16 2
  slices_S256x8000x16_S256x8000x2_0_0_0 : S256x8000x16.Slices ![0, 0, 0] S256x8000x2
  slices_S256x8000x16_S256x8000x14_0_0_2 : S256x8000x16.Slices ![0, 0, 2] S256x8000x14
  slices_S256x8000x14_S256x8000x1_0_0_0 : S256x8000x14.Slices ![0, 0, 0] S256x8000x1
  bcast_S256x8000x1_S256x8000x2_0_1_2 : S256x8000x1.BroadcastsInDim S256x8000x2 (![0, 1, 2] : Fin 3 → Fin S256x8000x2.rank)
  concatenates_S256x8000x2_S256x8000x14_S256x8000x16_d2 : Shape.Concatenates [S256x8000x2, S256x8000x14] S256x8000x16 2
  slices_S256x8000x16_S256x8000x1_0_0_0 : S256x8000x16.Slices ![0, 0, 0] S256x8000x1
  slices_S256x8000x16_S256x8000x15_0_0_1 : S256x8000x16.Slices ![0, 0, 1] S256x8000x15
  slices_S256x8000x15_S256x8000x1_0_0_0 : S256x8000x15.Slices ![0, 0, 0] S256x8000x1
  concatenates_S256x8000x1_S256x8000x15_S256x8000x16_d2 : Shape.Concatenates [S256x8000x1, S256x8000x15] S256x8000x16 2

variable [Facts₀]

class Facts : Prop extends Facts₀ where

variable [Facts]
-- ==== Proof.RowSpec.lean ====
/-
  The recursion that both programs run, written once, on ONE ROW of sixteen coefficients.

  A row is a function `r : ℕ → EReal` of which only the entries below 16 matter. A step with `k` coefficients left
  (`k` = 15, 14, …, 1) reads the reflection coefficient `r k`, replaces every entry `c < k` by
  `(r c − r k · r (k − 1 − c)) / (1 − r k · r k)` — the entry, less the coefficient times the entry mirrored inside the
  first `k`, over one less the coefficient's square — and keeps the entries from `k` on. Fifteen steps, `k` running
  down from 15 to 1, turn the linear-prediction coefficients into reflection coefficients. The division is the extended
  reals' total one (`Ideal.div`) and `1` is the float word of one read at the ideal instance, so nothing here
  needs a finite input: the two programs apply the same operations in the same order.

  `G` is the whole array's result: every row `(b, t)` of a `256 × 8000 × 16` array run through the fifteen steps.
-/
import Idealize.ShloMosaic.PureOps.Ideal
import Idealize.ShloMosaic.Lib.ValueIdx

noncomputable section

namespace Cert.Lpc

open Idealize.ShloMosaic Idealize.ShloMosaic.ValueIdx

/-- The float one, as both programs spell it. -/
def one : EReal := Ideal.ofBits .f32 0x3F800000#32

/-- One step on a row with `k` coefficients left. -/
def rowStep (k : ℕ) (r : ℕ → EReal) : ℕ → EReal := fun c =>
  if c < k then Ideal.div (r c - r k * r (k - 1 - c)) (one - r k * r k) else r c

/-- The row after `s` steps: step `s + 1` has `15 − s` coefficients left. -/
def rowAfter : ℕ → (ℕ → EReal) → ℕ → EReal
  | 0, r => r
  | s + 1, r => rowStep (15 - s) (rowAfter s r)

theorem rowAfter_succ (s : ℕ) (r : ℕ → EReal) : rowAfter (s + 1) r = rowStep (15 - s) (rowAfter s r) := rfl

theorem rowStep_lt {k c : ℕ} (r : ℕ → EReal) (h : c < k) :
    rowStep k r c = Ideal.div (r c - r k * r (k - 1 - c)) (one - r k * r k) := if_pos h

theorem rowStep_ge {k c : ℕ} (r : ℕ → EReal) (h : k ≤ c) : rowStep k r c = r c := if_neg (Nat.not_lt.2 h)

/-- The arrays' shape. -/
abbrev A3 : Shape := ⟨3, ![256, 8000, 16]⟩

/-- Row `(b, t)` of an array, as a function of the natural position (zero past the sixteenth). -/
def rowOf (X : A3.Idx → EReal) (b : Fin 256) (t : Fin 8000) : ℕ → EReal :=
  fun c => if h : c < 16 then X (ix3 b t ⟨c, h⟩) else 0

/-- The result array: each row after the fifteen steps. -/
def G (X : A3.Idx → EReal) : A3.Idx → EReal := fun i => rowAfter 15 (rowOf X (i 0) (i 1)) (i 2).val

theorem G_apply (X : A3.Idx → EReal) (b : Fin 256) (t : Fin 8000) (c : Fin 16) :
    G X (ix3 b t c) = rowAfter 15 (rowOf X b t) c.val := rfl

end Cert.Lpc

end
-- ==== Proof.KernelRead.lean ====
/-
  Matrices of extended reals read at natural positions, and ONE STEP of the recursion as the kernel spells it.

  The kernel keeps its state as a `16 × b` matrix: row `c` holds coefficient `c` of every one of the block's `b` rows
  of coefficients, so a COLUMN of the state is one row of the recursion. `rd v i j` is entry `(i, j)` of a matrix, and
  zero outside it: with positions natural numbers the layout operations become arithmetic on the first position — a
  slice of rows adds its offset, a stack of two matrices subtracts the first one's height in the second, a one-row
  matrix repeated down reads its only row, rows stacked in reverse read row `k − 1 − i` — and the pointwise operations
  act entry by entry. A step with `k` coefficients left, read at a column, is `Cert.Lpc.rowStep k` of that column.
-/
import proofs.«153034_j86260123174591_1_alg».proof.Proof.RowSpec
import Idealize.ShloMosaic.Lib.ValueIdx
import Idealize.ShloMosaic.Lib.ValueLayout
import Idealize.ShloMosaic.Lib.Pipeline.Value

noncomputable section

namespace Cert.Lpc

open Idealize.ShloMosaic Idealize.ShloMosaic.ValueIdx

/-- A matrix shape. -/
abbrev S2 (a b : ℕ) : Shape := ⟨2, ![a, b]⟩

/-- Entry `(i, j)` of a matrix, zero outside it. -/
def rd {a b : ℕ} (v : (S2 a b).Idx → EReal) (i j : ℕ) : EReal :=
  if h : i < a ∧ j < b then v (ix2 ⟨i, h.1⟩ ⟨j, h.2⟩) else 0

theorem rd_eq {a b : ℕ} (v : (S2 a b).Idx → EReal) {i j : ℕ} (hi : i < a) (hj : j < b) :
    rd v i j = v (ix2 ⟨i, hi⟩ ⟨j, hj⟩) := dif_pos ⟨hi, hj⟩

theorem rd_out {a b : ℕ} (v : (S2 a b).Idx → EReal) {i j : ℕ} (h : ¬(i < a ∧ j < b)) : rd v i j = 0 := dif_neg h

/-! ## The layout operations -/

/-- Rows `o, o + 1, …` of a matrix: row `i` of the slice is row `o + i`. -/
theorem rd_slice {a b a' : ℕ} (o : ℕ) (x : (S2 a b).Idx → EReal) (h : (S2 a b).Slices ![o, 0] (S2 a' b))
    {i j : ℕ} (hi : i < a') (hj : j < b) :
    rd (extractStridedSlice (S2 a' b) ![o, 0] x h) i j = rd x (o + i) j := by
  have hoa : o + a' ≤ a := h.2 0
  have hi' : o + i < a := by omega
  rw [rd_eq _ hi hj, rd_eq _ hi' hj]
  exact extractStridedSlice_apply _ x h _ _ fun c => match c with
    | ⟨0, _⟩ => rfl
    | ⟨1, _⟩ => (Nat.zero_add _).symm

/-- Two matrices stacked: above the seam, the first. -/
theorem rd_concat_top {a a1 a2 b : ℕ} (x1 : (S2 a1 b).Idx → EReal) (x2 : (S2 a2 b).Idx → EReal)
    (h : Shape.Concatenates [S2 a1 b, S2 a2 b] (S2 a b) 0) (ha : a1 + a2 = a) {i j : ℕ} (hi : i < a1) (hj : j < b) :
    rd (concatenate (S2 a b) 0 [⟨S2 a1 b, x1⟩, ⟨S2 a2 b, x2⟩] h) i j = rd x1 i j := by
  have hi' : i < a := by omega
  rw [rd_eq _ hi' hj, rd_eq _ hi hj]
  exact concatenate_pair_apply_left 0 x1 x2 h _ rfl _ fun c => match c with
    | ⟨0, _⟩ => rfl
    | ⟨1, _⟩ => rfl

/-- Two matrices stacked: from the seam on, the second, its height less. -/
theorem rd_concat_bot {a a1 a2 b : ℕ} (x1 : (S2 a1 b).Idx → EReal) (x2 : (S2 a2 b).Idx → EReal)
    (h : Shape.Concatenates [S2 a1 b, S2 a2 b] (S2 a b) 0) (ha : a1 + a2 = a) {i j : ℕ} (hi : a1 ≤ i) (hi' : i < a)
    (hj : j < b) :
    rd (concatenate (S2 a b) 0 [⟨S2 a1 b, x1⟩, ⟨S2 a2 b, x2⟩] h) i j = rd x2 (i - a1) j := by
  have hi2 : i - a1 < a2 := by omega
  rw [rd_eq _ hi' hj, rd_eq _ hi2 hj]
  refine concatenate_pair_apply_right 0 x1 x2 h _ rfl rfl _ (fun c hc => ?_) ?_
  · match c with
    | ⟨0, _⟩ => exact absurd rfl hc
    | ⟨1, _⟩ => rfl
  · exact Nat.sub_add_cancel hi

/-- A one-row matrix repeated down: every row is its row. -/
theorem rd_bcastTo {a b : ℕ} (x : (S2 1 b).Idx → EReal) (h : (S2 1 b).Broadcasts (S2 a b)) {i j : ℕ} (hi : i < a)
    (hj : j < b) : rd (broadcastTo (S2 a b) x h) i j = rd x 0 j := by
  rw [rd_eq _ hi hj, rd_eq _ Nat.one_pos hj]
  refine broadcastTo_apply x h _ _ fun c => ?_
  match c with
  | ⟨0, _⟩ => exact (if_pos rfl).symm
  | ⟨1, _⟩ =>
    show j = if b = 1 then 0 else j
    by_cases hb : b = 1
    · rw [if_pos hb]; omega
    · rw [if_neg hb]

/-- A matrix transposed. -/
theorem rd_transpose {a b : ℕ} (x : (S2 a b).Idx → EReal) (h : (S2 a b).Transposes [1, 0] (S2 b a)) {i j : ℕ}
    (hi : i < b) (hj : j < a) : rd (transpose (S2 b a) [1, 0] x h) i j = rd x j i := by
  rw [rd_eq _ hi hj, rd_eq _ hj hi]
  exact transpose_ix2_apply x h _ _

/-- The `k` rows of a matrix taken apart and stacked last row first: row `i` of the stack is row `k − 1 − i`. -/
theorem rd_rev (k b : ℕ) (x : (S2 k b).Idx → EReal)
    (hs : ∀ n : Fin k, (S2 k b).Slices ![k - 1 - n.val, 0] (S2 1 b))
    (h : Shape.Concatenates ((List.ofFn fun n : Fin k =>
      (⟨S2 1 b, extractStridedSlice (S2 1 b) ![k - 1 - n.val, 0] x (hs n)⟩ : (s : Shape) × (s.Idx → EReal))).map (·.1)) (S2 k b) 0)
    {i j : ℕ} (hi : i < k) (hj : j < b) :
    rd (concatenate (S2 k b) 0 (List.ofFn fun n : Fin k =>
      (⟨S2 1 b, extractStridedSlice (S2 1 b) ![k - 1 - n.val, 0] x (hs n)⟩ : (s : Shape) × (s.Idx → EReal))) h) i j
      = rd x (k - 1 - i) j := by
  have hi' : k - 1 - i < k := by omega
  rw [rd_eq _ hi hj, rd_eq _ hi' hj]
  refine (concatenate_ofFn_unit_apply (t := S2 k b) (s₁ := S2 1 b) 0 (fun n : Fin k => extractStridedSlice (S2 1 b) ![k - 1 - n.val, 0] x (hs n)) h rfl rfl
    (ix2 ⟨i, hi⟩ ⟨j, hj⟩) ⟨i, hi⟩ rfl (ix2 0 ⟨j, hj⟩) (fun c hc => ?_)).trans ?_
  · match c with
    | ⟨0, _⟩ => exact absurd rfl hc
    | ⟨1, _⟩ => rfl
  · exact extractStridedSlice_apply _ x (hs ⟨i, hi⟩) _ _ fun c => match c with
      | ⟨0, _⟩ => (Nat.add_zero _).symm
      | ⟨1, _⟩ => (Nat.zero_add _).symm

/-! ## The pointwise operations, on the extended reals -/

theorem rd_mulf {a b : ℕ} (x y : FVec Ideal (S2 a b) .f32) (i j : ℕ) : rd (mulf x y) i j = rd x i j * rd y i j := by
  unfold rd; split
  · rfl
  · exact (mul_zero 0).symm

theorem rd_subf {a b : ℕ} (x y : FVec Ideal (S2 a b) .f32) (i j : ℕ) : rd (subf x y) i j = rd x i j - rd y i j := by
  unfold rd; split
  · rfl
  · exact (sub_zero 0).symm

theorem rd_divf {a b : ℕ} (x y : FVec Ideal (S2 a b) .f32) {i j : ℕ} (hi : i < a) (hj : j < b) :
    rd (divf x y) i j = Ideal.div (rd x i j) (rd y i j) := by
  rw [rd_eq _ hi hj, rd_eq _ hi hj, rd_eq _ hi hj]; rfl

theorem rd_const {a b : ℕ} (c : EReal) {i j : ℕ} (hi : i < a) (hj : j < b) : rd (broadcast (S2 a b) c) i j = c := by
  rw [rd_eq _ hi hj]; rfl

/-! ## One step, as the kernel spells it -/

/-- The kernel's float one is the specification's. -/
theorem kernel_one : (Scalar.ofBits (F := Ideal) .f32 0x3F800000#32 : EReal) = one := rfl

/-- A MIDDLE step (`k` coefficients left, `2 ≤ k ≤ 14` in use): the state split at row `k` into `a` (above) and
    `b` (below), the coefficient the first row of `b`, the mirrored `a` any matrix that reads `a` at row `k − 1 − i`;
    the new state stacks `(a − coefficient · mirrored a) / (1 − coefficient²)` on `b`. Read at a column it is
    `rowStep k` of that column. -/
theorem kstep_mid {k k' b : ℕ} (hkk : k + k' = 16) (hk' : 0 < k')
    (v : FVec Ideal (S2 16 b) .f32) (REV : FVec Ideal (S2 k b) .f32)
    (hA : (S2 16 b).Slices ![0, 0] (S2 k b)) (hB : (S2 16 b).Slices ![k, 0] (S2 k' b))
    (hKI : (S2 k' b).Slices ![0, 0] (S2 1 b)) (hb hb' : (S2 1 b).Broadcasts (S2 k b))
    (hcat : Shape.Concatenates [S2 k b, S2 k' b] (S2 16 b) 0)
    (hREV : ∀ i j, i < k → j < b → rd REV i j = rd (extractStridedSlice (S2 k b) ![0, 0] v hA) (k - 1 - i) j)
    {i j : ℕ} (hi : i < 16) (hj : j < b) :
    rd (concatenate (S2 16 b) 0
        [⟨S2 k b, divf (subf (extractStridedSlice (S2 k b) ![0, 0] v hA)
            (mulf (broadcastTo (S2 k b) (extractStridedSlice (S2 1 b) ![0, 0] (extractStridedSlice (S2 k' b) ![k, 0] v hB) hKI) hb) REV))
          (broadcastTo (S2 k b) (subf (broadcast (S2 1 b) (Scalar.ofBits .f32 0x3F800000#32))
            (mulf (extractStridedSlice (S2 1 b) ![0, 0] (extractStridedSlice (S2 k' b) ![k, 0] v hB) hKI)
                  (extractStridedSlice (S2 1 b) ![0, 0] (extractStridedSlice (S2 k' b) ![k, 0] v hB) hKI))) hb')⟩,
         ⟨S2 k' b, extractStridedSlice (S2 k' b) ![k, 0] v hB⟩] hcat) i j
      = rowStep k (fun c => rd v c j) i := by
  by_cases hik : i < k
  · have h1 : k - 1 - i < k := by omega
    rw [rowStep_lt _ hik, rd_concat_top _ _ hcat hkk hik hj, rd_divf _ _ hik hj, rd_subf, rd_mulf,
      rd_bcastTo _ hb hik hj, rd_bcastTo _ hb' hik hj, rd_subf, rd_mulf, rd_const _ Nat.one_pos hj,
      rd_slice 0 v hA hik hj, rd_slice 0 _ hKI Nat.one_pos hj, rd_slice k v hB hk' hj, hREV i j hik hj,
      rd_slice 0 v hA h1 hj, kernel_one]
    simp only [Nat.zero_add, Nat.add_zero]
  · have hki : k ≤ i := Nat.le_of_not_lt hik
    have h2 : i - k < k' := by omega
    rw [rowStep_ge _ hki, rd_concat_bot _ _ hcat hkk hki hi hj, rd_slice k v hB h2 hj]
    exact congrArg (fun c => rd v c j) (by omega)

/-- The FIRST step (fifteen coefficients left): the part below the split is the coefficient's one row itself. -/
theorem kstep_first {b : ℕ} (v : FVec Ideal (S2 16 b) .f32) (REV : FVec Ideal (S2 15 b) .f32)
    (hA : (S2 16 b).Slices ![0, 0] (S2 15 b)) (hB : (S2 16 b).Slices ![15, 0] (S2 1 b))
    (hb hb' : (S2 1 b).Broadcasts (S2 15 b))
    (hcat : Shape.Concatenates [S2 15 b, S2 1 b] (S2 16 b) 0)
    (hREV : ∀ i j, i < 15 → j < b → rd REV i j = rd (extractStridedSlice (S2 15 b) ![0, 0] v hA) (15 - 1 - i) j)
    {i j : ℕ} (hi : i < 16) (hj : j < b) :
    rd (concatenate (S2 16 b) 0
        [⟨S2 15 b, divf (subf (extractStridedSlice (S2 15 b) ![0, 0] v hA)
            (mulf (broadcastTo (S2 15 b) (extractStridedSlice (S2 1 b) ![15, 0] v hB) hb) REV))
          (broadcastTo (S2 15 b) (subf (broadcast (S2 1 b) (Scalar.ofBits .f32 0x3F800000#32))
            (mulf (extractStridedSlice (S2 1 b) ![15, 0] v hB) (extractStridedSlice (S2 1 b) ![15, 0] v hB))) hb')⟩,
         ⟨S2 1 b, extractStridedSlice (S2 1 b) ![15, 0] v hB⟩] hcat) i j
      = rowStep 15 (fun c => rd v c j) i := by
  by_cases hik : i < 15
  · have h1 : 15 - 1 - i < 15 := by omega
    rw [rowStep_lt _ hik, rd_concat_top _ _ hcat rfl hik hj, rd_divf _ _ hik hj, rd_subf, rd_mulf,
      rd_bcastTo _ hb hik hj, rd_bcastTo _ hb' hik hj, rd_subf, rd_mulf, rd_const _ Nat.one_pos hj,
      rd_slice 0 v hA hik hj, rd_slice 15 v hB Nat.one_pos hj, hREV i j hik hj,
      rd_slice 0 v hA h1 hj, kernel_one]
    simp only [Nat.zero_add, Nat.add_zero]
  · have hki : 15 ≤ i := Nat.le_of_not_lt hik
    have h2 : i - 15 < 1 := by omega
    rw [rowStep_ge _ hki, rd_concat_bot _ _ hcat rfl hki hi hj, rd_slice 15 v hB h2 hj]
    exact congrArg (fun c => rd v c j) (by omega)

/-- The LAST step (one coefficient left): one row above the split, its own mirror image, and nothing repeated down. -/
theorem kstep_last {b : ℕ} (v : FVec Ideal (S2 16 b) .f32)
    (hA : (S2 16 b).Slices ![0, 0] (S2 1 b)) (hB : (S2 16 b).Slices ![1, 0] (S2 15 b))
    (hKI : (S2 15 b).Slices ![0, 0] (S2 1 b))
    (hcat : Shape.Concatenates [S2 1 b, S2 15 b] (S2 16 b) 0)
    {i j : ℕ} (hi : i < 16) (hj : j < b) :
    rd (concatenate (S2 16 b) 0
        [⟨S2 1 b, divf (subf (extractStridedSlice (S2 1 b) ![0, 0] v hA)
            (mulf (extractStridedSlice (S2 1 b) ![0, 0] (extractStridedSlice (S2 15 b) ![1, 0] v hB) hKI)
              (extractStridedSlice (S2 1 b) ![0, 0] v hA)))
          (subf (broadcast (S2 1 b) (Scalar.ofBits .f32 0x3F800000#32))
            (mulf (extractStridedSlice (S2 1 b) ![0, 0] (extractStridedSlice (S2 15 b) ![1, 0] v hB) hKI)
                  (extractStridedSlice (S2 1 b) ![0, 0] (extractStridedSlice (S2 15 b) ![1, 0] v hB) hKI)))⟩,
         ⟨S2 15 b, extractStridedSlice (S2 15 b) ![1, 0] v hB⟩] hcat) i j
      = rowStep 1 (fun c => rd v c j) i := by
  by_cases hik : i < 1
  · have hi0 : i = 0 := by omega
    subst hi0
    rw [rowStep_lt _ hik, rd_concat_top _ _ hcat rfl hik hj, rd_divf _ _ hik hj, rd_subf, rd_mulf, rd_subf, rd_mulf,
      rd_const _ Nat.one_pos hj, rd_slice 0 v hA hik hj, rd_slice 0 _ hKI Nat.one_pos hj,
      rd_slice 1 v hB (by omega) hj, kernel_one]
  · have hki : 1 ≤ i := Nat.le_of_not_lt hik
    have h2 : i - 1 < 15 := by omega
    rw [rowStep_ge _ hki, rd_concat_bot _ _ hcat rfl hki hi hj, rd_slice 1 v hB h2 hj]
    exact congrArg (fun c => rd v c j) (by omega)

end Cert.Lpc

end
-- ==== Proof.KernelBody.lean ====
/-
  One block of the kernel, read at an index.

  The kernel's body loads its `8192 × 16` input block, transposes it so that the sixteen coefficients lie along the
  first axis and the block's 8192 rows along the second, runs the fifteen steps of the recursion on all rows at once
  (each step: split the state at `k`, mirror the first `k` rows by taking them apart and stacking them in reverse,
  combine, divide, and stack the untouched rows back underneath), transposes back and stores. So entry `(n, c)` of the
  stored block is entry `c` of row `n` of the input block after the fifteen steps of `Cert.Lpc.rowStep`.

  The states are followed from the last back to the first: each is the stack that `Cert.Lpc.kstep_mid` (or the first or
  the last step's form) describes over the state before it, so its column `n` is `rowStep k` of the earlier state's
  column `n`, and the transposed input block's column `n` is the block's row `n`.
-/
import proofs.«153034_j86260123174591_1_alg».proof.Proof.Gen.KernelIdeal.Frame
import proofs.«153034_j86260123174591_1_alg».proof.Proof.RowSpec
import proofs.«153034_j86260123174591_1_alg».proof.Proof.KernelRead
import Idealize.ShloMosaic.Lib.ValueIdx
import Idealize.ShloMosaic.Lib.Pipeline.Value

noncomputable section

namespace Cert.KernelIdeal.BodyValue

open Idealize.ShloMosaic Idealize.ShloMosaic.ValueIdx Cert.KernelIdeal Cert.KernelIdeal.Gen Cert.Lpc

/-- Row `n` of an input block, as a function of the natural position (zero past the sixteenth). -/
def blockRow (x0 : Vec Ideal S8192x16 .f32) (n : Fin 8192) : ℕ → EReal :=
  fun c => if h : c < 16 then x0 (ix2 n ⟨c, h⟩) else 0

theorem blockRow_ge (x0 : Vec Ideal S8192x16 .f32) (n : Fin 8192) {c : ℕ} (h : 16 ≤ c) : blockRow x0 n c = 0 :=
  dif_neg (by omega)

/-- Entries from the sixteenth on are never touched: every step has at most fifteen coefficients left. -/
theorem rowAfter_ge (s : ℕ) (hs : s ≤ 15) (r : ℕ → EReal) {c : ℕ} (h : 16 ≤ c) : rowAfter s r c = r c := by
  induction s with
  | zero => rfl
  | succ s ih => rw [rowAfter_succ, rowStep_ge _ (by omega), ih (by omega)]

/-- From one state to the next: if the earlier state's column is the row after `s` steps and the later state's column
    is `rowStep` of the earlier one's, the later state's column is the row after `s + 1` steps — at every natural
    position, both sides being zero from the sixteenth on. -/
theorem chain {b n : ℕ} (row : ℕ → EReal) (hrow : ∀ c, 16 ≤ c → row c = 0) (s : ℕ) (hs : s < 15)
    {vprev vnext : FVec Ideal (S2 16 b) .f32}
    (hstep : ∀ c, c < 16 → rd vnext c n = rowStep (15 - s) (fun c' => rd vprev c' n) c)
    (hprev : ∀ c, rd vprev c n = rowAfter s row c) :
    ∀ c, rd vnext c n = rowAfter (s + 1) row c := by
  intro c
  by_cases hc : c < 16
  · rw [hstep c hc, rowAfter_succ]
    exact congrArg (fun r => rowStep (15 - s) r c) (funext hprev)
  · rw [rd_out _ (by omega), rowAfter_ge (s + 1) (by omega) row (by omega), hrow c (by omega)]

/-- The one-row slices that take a `k`-row matrix apart, last row first, are in range. -/
theorem slices_row (k b : ℕ) (n : Fin k) : (S2 k b).Slices ![k - 1 - n.val, 0] (S2 1 b) :=
  ⟨rfl, fun a => match a with
    | ⟨0, _⟩ => by show k - 1 - n.val + 1 ≤ k; have := n.isLt; omega
    | ⟨1, _⟩ => by show 0 + b ≤ b; omega⟩

/-- `rd_rev` for a stack given as any list that IS the list of those slices. -/
theorem rd_rev' (k b : ℕ) (x : (S2 k b).Idx → EReal) (xs : List ((s : Shape) × (s.Idx → EReal)))
    (hs : ∀ n : Fin k, (S2 k b).Slices ![k - 1 - n.val, 0] (S2 1 b))
    (hxs : xs = List.ofFn fun n : Fin k =>
      (⟨S2 1 b, extractStridedSlice (S2 1 b) ![k - 1 - n.val, 0] x (hs n)⟩ : (s : Shape) × (s.Idx → EReal)))
    (h : Shape.Concatenates (xs.map (·.1)) (S2 k b) 0) {i j : ℕ} (hi : i < k) (hj : j < b) :
    rd (concatenate (S2 k b) 0 xs h) i j = rd x (k - 1 - i) j := by
  subst hxs
  exact rd_rev k b x hs h hi hj

variable (x : Vec Ideal S8192x16 .f32) (n : Fin 8192)

/-- Column `n` of the transposed input block is row `n` of the block. -/
theorem col_start (p1 : S8192x16.ShapeCasts S8192x16) (p2 : S8192x16.Transposes [1, 0] S16x8192) :
    ∀ c, rd (transpose S16x8192 [1, 0] (shapeCast S8192x16 x p1) p2) c n.val = rowAfter 0 (blockRow x n) c := by
  intro c
  show _ = blockRow x n c
  by_cases hc : c < 16
  · rw [rd_transpose _ p2 hc n.isLt, shapeCast_self, rd_eq _ n.isLt hc]
    unfold blockRow; rw [dif_pos hc]
  · rw [rd_out _ (by omega), blockRow_ge x n (by omega)]

/-- After the first step. -/
theorem col1 : ∀ c, rd (k0_pay2 (F := Ideal) x) c n.val = rowAfter 1 (blockRow x n) c :=
  chain (blockRow x n) (fun c hc => blockRow_ge x n hc) 0 (by omega)
    (fun c hc => kstep_first _ _ _ _ _ _ (by decide)
      (fun i j hi hj => rd_rev' 15 8192 _ _ (slices_row 15 8192) rfl _ hi hj) hc n.isLt)
    (col_start x n _ _)

/-- The mirrored stack of a middle step, for `kstep_mid`: any list that is the `k` one-row slices, last first. -/
theorem rev_ok (k : ℕ) (A : (S2 k 8192).Idx → EReal) (xs : List ((s : Shape) × (s.Idx → EReal)))
    (hxs : xs = List.ofFn fun m : Fin k =>
      (⟨S2 1 8192, extractStridedSlice (S2 1 8192) ![k - 1 - m.val, 0] A (slices_row k 8192 m)⟩ : (s : Shape) × (s.Idx → EReal)))
    (h : Shape.Concatenates (xs.map (·.1)) (S2 k 8192) 0) :
    ∀ i j, i < k → j < 8192 → rd (concatenate (S2 k 8192) 0 xs h) i j = rd A (k - 1 - i) j :=
  fun _ _ hi hj => rd_rev' k 8192 A xs (slices_row k 8192) hxs h hi hj

/-- The shapes of the `k` one-row slices do not depend on the matrix sliced: they stack to `k` rows whenever `k` one-row
    shapes do. -/
theorem rows_concat (k : ℕ) (A : (S2 k 8192).Idx → EReal)
    (hk : Shape.Concatenates (List.ofFn fun _ : Fin k => S2 1 8192) (S2 k 8192) 0) :
    Shape.Concatenates ((List.ofFn fun m : Fin k =>
      (⟨S2 1 8192, extractStridedSlice (S2 1 8192) ![k - 1 - m.val, 0] A (slices_row k 8192 m)⟩ : (s : Shape) × (s.Idx → EReal))).map (·.1))
      (S2 k 8192) 0 := by
  rw [List.map_ofFn]; exact hk

/-! ## The values the body's stretches hand to one another

The body is printed in stretches of sixty operations, each a function of the values the stretch before it hands on;
these name what is handed on, as functions of the loaded block. -/

abbrev e3 := k0_pay3 (F := Ideal) x
abbrev e5 := k0_pay5 (F := Ideal) x
abbrev e6 := k0_pay6 (F := Ideal) x
abbrev e8 := k0_pay8 (e3 x) (e5 x) (e6 x)
abbrev e9 := k0_pay9 (e3 x) (e5 x) (e6 x)
abbrev e10 := k0_pay10 (e3 x) (e5 x) (e6 x)
abbrev e11 := k0_pay11 (e3 x) (e5 x) (e6 x)
abbrev e12 := k0_pay12 (e3 x) (e5 x) (e6 x)
abbrev e14 := k0_pay14 (e8 x) (e9 x) (e10 x) (e11 x) (e12 x)
abbrev e15 := k0_pay15 (e8 x) (e9 x) (e10 x) (e11 x) (e12 x)
abbrev e16 := k0_pay16 (e8 x) (e9 x) (e10 x) (e11 x) (e12 x)
abbrev e17 := k0_pay17 (e8 x) (e9 x) (e10 x) (e11 x) (e12 x)
abbrev e18 := k0_pay18 (e8 x) (e9 x) (e10 x) (e11 x) (e12 x)
abbrev e19 : FVec Ideal S1x8192 .f32 := k0_pay19 (F := Ideal)
abbrev e21 := k0_pay21 (e14 x) (e15 x) (e16 x) (e17 x) (e18 x) e19
abbrev e22 := k0_pay22 (e14 x) (e15 x) (e16 x) (e17 x) (e18 x) e19
abbrev e23 := k0_pay23 (e14 x) (e15 x) (e16 x) (e17 x) (e18 x) e19
abbrev e24 := k0_pay24 (e14 x) (e15 x) (e16 x) (e17 x) (e18 x) e19
abbrev e26 := k0_pay26 (e21 x) (e22 x) (e23 x) (e24 x)
abbrev e27 := k0_pay27 (e21 x) (e22 x) (e23 x) (e24 x)
abbrev e29 := k0_pay29 (e21 x) (e22 x) (e23 x) (e24 x)
abbrev e30 := k0_pay30 (e21 x) (e22 x) (e23 x) (e24 x)

/-! ## The states, from the first step to the last -/

/-- After four steps: the second stretch ends on this state. -/
theorem col4 : ∀ c, rd (k0_pay7 (e3 x) (e5 x) (e6 x)) c n.val = rowAfter 4 (blockRow x n) c :=
  chain (blockRow x n) (fun c hc => blockRow_ge x n hc) 3 (by omega)
    (fun c hc => kstep_mid (k := 12) (k' := 4) rfl (by omega) _ _ (by decide) (by decide) (by decide) (by decide) (by decide) (by decide) (rev_ok 12 _ _ rfl _) hc n.isLt)
    (chain (blockRow x n) (fun c hc => blockRow_ge x n hc) 2 (by omega)
      (fun c hc => kstep_mid (k := 13) (k' := 3) rfl (by omega) _ _ (by decide) (by decide) (by decide) (by decide) (by decide) (by decide) (rev_ok 13 _ _ rfl _) hc n.isLt)
      (chain (blockRow x n) (fun c hc => blockRow_ge x n hc) 1 (by omega)
        (fun c hc => kstep_mid (k := 14) (k' := 2) rfl (by omega) _ _ (by decide) (by decide) (by decide) (by decide) (by decide) (by decide) (rev_ok 14 _ _ rfl _) hc n.isLt)
        (col1 x n)))

/-- After six steps: the third stretch's state. -/
theorem col6 : ∀ c, rd (k0_pay13 (e8 x) (e9 x) (e10 x) (e11 x) (e12 x)) c n.val = rowAfter 6 (blockRow x n) c :=
  chain (blockRow x n) (fun c hc => blockRow_ge x n hc) 5 (by omega)
    (fun c hc => kstep_mid (k := 10) (k' := 6) rfl (by omega) _ _ (by decide) (by decide) (by decide) (by decide) (by decide) (by decide) (rev_ok 10 _ _ rfl _) hc n.isLt)
    (chain (blockRow x n) (fun c hc => blockRow_ge x n hc) 4 (by omega)
      (fun c hc => kstep_mid (k := 11) (k' := 5) rfl (by omega) _ _ (by decide) (by decide) (by decide) (by decide) (by decide) (by decide) (rev_ok 11 _ _ rfl _) hc n.isLt)
      (col4 x n))

/-- After nine steps: the fourth stretch's state. -/
theorem col9 : ∀ c, rd (k0_pay20 (e14 x) (e15 x) (e16 x) (e17 x) (e18 x) e19) c n.val = rowAfter 9 (blockRow x n) c :=
  chain (blockRow x n) (fun c hc => blockRow_ge x n hc) 8 (by omega)
    (fun c hc => kstep_mid (k := 7) (k' := 9) rfl (by omega) _ _ (by decide) (by decide) (by decide) (by decide) (by decide) (by decide) (rev_ok 7 _ _ rfl _) hc n.isLt)
    (chain (blockRow x n) (fun c hc => blockRow_ge x n hc) 7 (by omega)
      (fun c hc => kstep_mid (k := 8) (k' := 8) rfl (by omega) _ _ (by decide) (by decide) (by decide) (by decide) (by decide) (by decide) (rev_ok 8 _ _ rfl _) hc n.isLt)
      (chain (blockRow x n) (fun c hc => blockRow_ge x n hc) 6 (by omega)
        (fun c hc => kstep_mid (k := 9) (k' := 7) rfl (by omega) _ (e17 x) (by decide) (by decide) (by decide) (by decide) (by decide) (by decide) (rev_ok 9 _ _ rfl (rows_concat 9 _ (by decide))) hc n.isLt)
        (col6 x n)))

/-- After twelve steps: the fifth stretch's state. -/
theorem col12 : ∀ c, rd (k0_pay25 (e21 x) (e22 x) (e23 x) (e24 x)) c n.val = rowAfter 12 (blockRow x n) c :=
  chain (blockRow x n) (fun c hc => blockRow_ge x n hc) 11 (by omega)
    (fun c hc => kstep_mid (k := 4) (k' := 12) rfl (by omega) _ _ (by decide) (by decide) (by decide) (by decide) (by decide) (by decide) (rev_ok 4 _ _ rfl _) hc n.isLt)
    (chain (blockRow x n) (fun c hc => blockRow_ge x n hc) 10 (by omega)
      (fun c hc => kstep_mid (k := 5) (k' := 11) rfl (by omega) _ _ (by decide) (by decide) (by decide) (by decide) (by decide) (by decide) (rev_ok 5 _ _ rfl _) hc n.isLt)
      (chain (blockRow x n) (fun c hc => blockRow_ge x n hc) 9 (by omega)
        (fun c hc => kstep_mid (k := 6) (k' := 10) rfl (by omega) _ (e24 x) (by decide) (by decide) (by decide) (by decide) (by decide) (by decide) (rev_ok 6 _ _ rfl (rows_concat 6 _ (by decide))) hc n.isLt)
        (col9 x n)))

/-- What the last stretch stores, read at row `n`, position `c`: the state after the fifteenth step, transposed back. -/
theorem stored (c : ℕ) (hc : c < 16) :
    rd (k0_pay1 (e26 x) (e27 x) (e29 x) (e30 x)) n.val c = rowAfter 15 (blockRow x n) c := by
  refine (rd_transpose _ (by decide) n.isLt hc).trans ?_
  exact chain (blockRow x n) (fun c hc => blockRow_ge x n hc) 14 (by omega)
    (fun c hc => kstep_last _ (by decide) (by decide) (by decide) (by decide) hc n.isLt)
    (chain (blockRow x n) (fun c hc => blockRow_ge x n hc) 13 (by omega)
      (fun c hc => kstep_mid (k := 2) (k' := 14) rfl (by omega) _ _ (by decide) (by decide) (by decide) (by decide) (by decide) (by decide) (rev_ok 2 _ _ rfl _) hc n.isLt)
      (chain (blockRow x n) (fun c hc => blockRow_ge x n hc) 12 (by omega)
        (fun c hc => kstep_mid (k := 3) (k' := 13) rfl (by omega) _ _ (by decide) (by decide) (by decide) (by decide) (by decide) (by decide) (rev_ok 3 _ _ rfl _) hc n.isLt)
        (col12 x n))) c

/-- The offsets of the body's one load and one store are zero on both axes. -/
theorem offsets_zero : (![0, 0] : Fin 2 → ℕ) = fun _ => 0 := by
  funext a; match a with
  | ⟨0, _⟩ => rfl
  | ⟨1, _⟩ => rfl

/-- What the body stores, entry by entry: the input block's row after the fifteen steps. -/
theorem out_block (x0 : Vec Ideal S8192x16 .f32) (n : Fin 8192) (c : Fin 16) :
    out0_1 (F := Ideal) x0 (ix2 n c) = Cert.Lpc.rowAfter 15 (blockRow x0 n) c.val := by
  have hx : View.ld x0 r0_0 = x0 := View.ld_unit_zero (S := S8192x16) offsets_zero _ x0
  have e : out0_1 (F := Ideal) x0 = k0_pay1 (e26 x0) (e27 x0) (e29 x0) (e30 x0) := by
    unfold out0_1
    rw [View.canon_unit_zero offsets_zero, hx]
  rw [e]
  exact (rd_eq _ n.isLt c.isLt).symm.trans (stored x0 n c.val c.isLt)

end Cert.KernelIdeal.BodyValue

end
-- ==== Proof.KernelArray.lean ====
/-
  From the kernel's blocks to its result array.

  The program first lays its `256 × 8000 × 16` argument out flat, as `2048000` rows of sixteen coefficients: row
  `8000 b + t` of the flat array is row `(b, t)` of the argument. The grid has 250 points; point `p` reads rows
  `8192 p … 8192 p + 8191` of the flat array as its input block and writes the same rows of the flat result. A block
  entry `(n, c)` is entry `c` of the block's row `n` after the fifteen steps of the recursion, and row `n` of point
  `p`'s block is row `8192 p + n` of the flat array; so the flat result is, row by row, the flat input's row after the
  fifteen steps (`flatResult`). Every flat row `R` lies in the block of point `R / 8192`, so the blocks cover the flat
  result. Laying the flat result out again as `256 × 8000 × 16` gives, at `(b, t, c)`, entry `c` of row `8000 b + t` of
  the flat result, which is entry `c` of the argument's row `(b, t)` after the fifteen steps: `Cert.Lpc.G`.
-/
import proofs.«153034_j86260123174591_1_alg».proof.Proof.Gen.KernelIdeal.Frame
import proofs.«153034_j86260123174591_1_alg».proof.Proof.KernelBody
import proofs.«153034_j86260123174591_1_alg».proof.Proof.RowSpec
import Idealize.ShloMosaic.Lib.ValueIdx
import Idealize.ShloMosaic.Lib.Pipeline.Value
import Idealize.ShloMosaic.Lib.StableHlo.Run

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen

/-! ## The flat array, row by row -/

/-- Row `R` of a flat `2048000 × 16` array, as a function of the natural position (zero past the sixteenth). -/
def flatRow (Y : Vec Ideal S2048000x16 .f32) (R : Fin 2048000) : ℕ → EReal :=
  fun c => if h : c < 16 then Y (ix2 R ⟨c, h⟩) else 0

/-- The flat result: each row of the flat array after the fifteen steps. -/
def flatResult (Y : Vec Ideal S2048000x16 .f32) : Vec Ideal S2048000x16 .f32 :=
  fun i => Cert.Lpc.rowAfter 15 (flatRow Y (i 0)) (i 1).val

/-- One block against the flat array. If the block `x0` is rows `8192 T …` of the flat array `Y` (entry `y` of the
    block is entry `k` of `Y` whenever `k`'s row is `8192 T` plus `y`'s and the columns agree), then what the body
    stores at `j` is the flat result at the index `i` with row `8192 T` plus `j`'s and the same column: both are the
    same row run through the fifteen steps, read at the same position. -/
theorem block_point (Y : Vec Ideal S2048000x16 .f32) (x0 : Vec Ideal S8192x16 .f32) (T : ℕ)
    (hx : ∀ (y : S8192x16.Idx) (k : S2048000x16.Idx), (k 0).val = T * 8192 + (y 0).val → (k 1).val = (y 1).val → x0 y = Y k)
    (j : S8192x16.Idx) (i : S2048000x16.Idx) (h0 : (i 0).val = T * 8192 + (j 0).val) (h1 : (i 1).val = (j 1).val) :
    out0_1 (F := Ideal) x0 j = flatResult Y i := by
  obtain ⟨n, c, rfl⟩ : ∃ (n : Fin 8192) (c : Fin 16), j = ix2 n c := ⟨j 0, j 1, eq_ix2 j⟩
  rw [Cert.KernelIdeal.BodyValue.out_block]
  unfold flatResult
  -- the block's row `n` is the flat array's row `8192 T + n`, position by position
  have hrow : Cert.KernelIdeal.BodyValue.blockRow x0 n = flatRow Y (i 0) := by
    funext c'
    unfold Cert.KernelIdeal.BodyValue.blockRow flatRow
    by_cases hc : c' < 16
    · rw [dif_pos hc, dif_pos hc]
      exact hx _ _ h0 rfl
    · rw [dif_neg hc, dif_neg hc]
  rw [hrow]
  exact congrArg _ h1.symm

/-! ## The index maps -/

/-- Both windows' block index at point `t` is `(t, 0)`: decided over the 250 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

section Arrays

variable (m : (ℓ : Loc nD τ sig) → Buf (Elt Ideal) ℓ) (ρ : Dev nD → PrngReg)

/-! ## What each point writes back -/

/-- The input window's block at point `t` is rows `8192 t … 8192 t + 8191` of the flat input array: a block's
    coordinate is the block index times the block's extent plus the coordinate inside the block. -/
theorem iblk_apply (c : Dev nD) (t : Fin cfg0.N) (y : S8192x16.Idx) (k : S2048000x16.Idx)
    (hk0 : (k 0).val = t.val * 8192 + (y 0).val) (hk1 : (k 1).val = (y 1).val) :
    (iblk m c 0 t : Vec Ideal S8192x16 .f32) y = (V m c main_v0 : Vec Ideal S2048000x16 .f32) k := by
  obtain ⟨e0, e1, -, -⟩ := idx_facts t
  unfold iblk
  rw [View.read_apply]
  show V m c main_v0 _ = V m c main_v0 _
  congr 1
  funext a
  apply Fin.ext
  match a with
  | ⟨0, _⟩ => show win0_0.index t (0 : Fin 2) * 8192 + 1 * (y 0).val = (k 0).val; rw [e0, hk0]; omega
  | ⟨1, _⟩ => show win0_0.index t (1 : Fin 2) * 16 + 1 * (y 1).val = (k 1).val; rw [e1, hk1]; omega

/-- What point `t` writes back is block `t` of the flat result of the flat input array: the output's block sits at
    the same rows `8192 t …` as the input's. -/
theorem flushed_eq (c : Dev nD) (t : Fin cfg0.N) :
    (dats m 0 c).flushed 1 t = ((cfg0.win 1).blk t).view.read (Elt Ideal) (flatResult (V m c main_v0)) := by
  show (cfg0.win 1).cut (grid0.coords t) ((dats m 0 c).after 1 t) = _
  rw [after0_1]
  obtain ⟨-, -, e2, e3⟩ := idx_facts t
  funext j
  rw [View.read_apply]
  refine block_point (V m c main_v0) (iblk m c 0 t) t.val (fun y k hk0 hk1 => iblk_apply m c t y k hk0 hk1) j _ ?_ ?_
  · show win0_1.index t (0 : Fin 2) * 8192 + 1 * (j 0).val = t.val * 8192 + (j 0).val
    rw [e2]; omega
  · show win0_1.index t (1 : Fin 2) * 16 + 1 * (j 1).val = (j 1).val
    rw [e3]; omega

/-! ## The blocks cover the flat result -/

/-- An index of the flat result is in point `t`'s block iff each coordinate is in the block's range on its axis. -/
theorem mem_blk (t : Fin cfg0.N) (i : S2048000x16.Idx) :
    i ∈ ((cfg0.win 1).blk t).view.set ↔ ∀ a : Fin 2, win0_1.index t a * S8192x16.size a ≤ (i a).val
      ∧ (i a).val < win0_1.index t a * S8192x16.size a + S8192x16.size a := by
  show i ∈ ((View.whole main_v1).slice (win0_1.rect t)).set ↔ _
  rw [View.set_slice_whole, Rect.mem_set_unit]
  exact Iff.rfl

/-- Row `R` of the flat result lies in the block of point `R / 8192` (and `250 · 8192 = 2048000`: no row is left out). -/
theorem cover (i : S2048000x16.Idx) :
    ∃ t : Fin cfg0.N, (cfg0.win 1).flush t = true ∧ i ∈ ((cfg0.win 1).blk t).view.set := by
  have hi0 : (i 0).val < 2048000 := (i 0).isLt
  have hi1 : (i 1).val < 16 := (i 1).isLt
  have hN : cfg0.N = 250 := N_0
  have hlt : (i 0).val / 8192 < cfg0.N := by rw [hN]; omega
  obtain ⟨-, -, e2, e3⟩ := idx_facts ⟨(i 0).val / 8192, hlt⟩
  refine ⟨⟨(i 0).val / 8192, hlt⟩, flush0_1 _, ?_⟩
  rw [mem_blk]
  intro a
  match a with
  | ⟨0, _⟩ =>
    show win0_1.index ⟨(i 0).val / 8192, hlt⟩ (0 : Fin 2) * 8192 ≤ (i 0).val
      ∧ (i 0).val < win0_1.index ⟨(i 0).val / 8192, hlt⟩ (0 : Fin 2) * 8192 + 8192
    rw [e2]
    show (i 0).val / 8192 * 8192 ≤ (i 0).val ∧ (i 0).val < (i 0).val / 8192 * 8192 + 8192
    omega
  | ⟨1, _⟩ =>
    show win0_1.index ⟨(i 0).val / 8192, hlt⟩ (1 : Fin 2) * 16 ≤ (i 1).val
      ∧ (i 1).val < win0_1.index ⟨(i 0).val / 8192, hlt⟩ (1 : Fin 2) * 16 + 16
    rw [e3]; omega

/-- So the flat result array ends holding the flat result of the flat input array. -/
theorem final (c : Dev nD) : (dats m 0 c).arrAt 1 cfg0.N = flatResult (V m c main_v0) :=
  (dats m 0 c).arrAt_eq_of_cover 1 (flatResult (V m c main_v0)) (fun t _ => flushed_eq m c t) cover

/-! ## The two layouts around the region -/

/-- The flat input array as the region finds it is the argument laid out flat: its entry at `i` is the argument's
    entry at the index `k` with the same row-major position. -/
theorem V_main_v0_apply (c : Dev nD) (i : S2048000x16.Idx) (k : S256x8000x16.Idx)
    (hk : (S256x8000x16.rowMajor k).val = (S2048000x16.rowMajor i).val) :
    (V m c main_v0 : Vec Ideal S2048000x16 .f32) i
      = (m ((c : Thread nD τ).loc main_arg0) : Vec Ideal S256x8000x16 .f32) k := by
  show StableHlo.after hostOps0 (fun b => m (c, b)) (Proc.devRef .tc main_v0) i = _
  after_results
  exact shapeCast_apply _ _ i k hk

/-- The flat result array as the lines after the region find it. -/
theorem arr1_eq (c : Dev nD) :
    Pipeline.withArrays (cfgs 0).spec c (V0 m c) (fun w => (dats m 0 c).arrAt w (cfgs 0).N) (Proc.devRef .tc main_v1)
      = flatResult (V m c main_v0) :=
  (Pipeline.withArrays_arr spec0 launch0.win.arr_inj c _ _ 1).trans (final m c)

/-- The result array after the last line: the flat result laid out as `256 × 8000 × 16` is `G` of the argument.
    Entry `(b, t, c)` has row-major position `(8000 b + t) · 16 + c`, the position of `(8000 b + t, c)` in the flat
    arrays, and row `8000 b + t` of the flat input is row `(b, t)` of the argument, position by position. -/
theorem tail_eq (c : Dev nD) :
    Pipeline.afterTail₀ cfgs (dats m) 0 (V0 m) [hostOps1] c main_v2 = Cert.Lpc.G (m ((c : Thread nD τ).loc main_arg0)) := by
  unfold Pipeline.afterTail₀
  show StableHlo.after hostOps1 _ (Proc.devRef .tc main_v2) = _
  after_results
  rw [arr1_eq m c]
  funext i
  obtain ⟨b, t, cc, rfl⟩ : ∃ (b : Fin 256) (t : Fin 8000) (cc : Fin 16), i = ix3 b t cc := ⟨i 0, i 1, i 2, eq_ix3 i⟩
  have hR : b.val * 8000 + t.val < 2048000 := by have := b.isLt; have := t.isLt; omega
  refine (shapeCast_apply (flatResult (V m c main_v0)) _ (ix3 b t cc) (ix2 ⟨b.val * 8000 + t.val, hR⟩ cc) ?_).trans ?_
  · rw [Shape.rowMajor_val_two, Shape.rowMajor_val_three]; rfl
  · rw [Cert.Lpc.G_apply]
    show Cert.Lpc.rowAfter 15 (flatRow (V m c main_v0) ⟨b.val * 8000 + t.val, hR⟩) cc.val = _
    congr 1
    funext c'
    unfold flatRow Cert.Lpc.rowOf
    by_cases hc : c' < 16
    · rw [dif_pos hc, dif_pos hc]
      exact V_main_v0_apply m c _ _ (by rw [Shape.rowMajor_val_two, Shape.rowMajor_val_three]; rfl)
    · rw [dif_neg hc, dif_neg hc]

end Arrays

/-! ## The run -/

/-- The idealized kernel's run: the result array ends at `G` of the argument array, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = Cert.Lpc.G (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v2 (Pipeline.mem_restRefs_of main_v2 (by decide) (by decide))).trans (tail_eq m c),
     ((h c).2 main_arg0 (Pipeline.mem_restRefs_of main_arg0 (by decide) (by decide))).trans (W_main_arg0 m (dats m) c)⟩)
    (run_main m ρ)

end Cert.KernelIdeal.ArrayValue

end
-- ==== Proof.RefValueRead.lean ====
/-
  Arrays of shape 256 × 8000 × n read along their last axis.

  Row (b, t) of such an array is read at a NATURAL position c (zero from n on), so that the positions of slices,
  mirror images and concatenations are plain arithmetic. One lemma per operation of the reference's unrolled
  recursion says where it reads its operand: a slice along the last axis reads its offset further on, a broadcast
  from last extent one reads position zero, a reversal of the last axis reads the mirrored position, a two-piece
  concatenation along the last axis reads the piece the position falls in, and the scalar constant reads the float one.
-/
import proofs.«153034_j86260123174591_1_alg».proof.Proof.RowSpec
import Idealize.ShloMosaic.Lib.ValueIdx
import Idealize.ShloMosaic.Lib.IdealHost
import Idealize.ShloMosaic.Lib.Pipeline.Value

noncomputable section

namespace Cert.ReferenceIdeal.RefValue

open Idealize.ShloMosaic Idealize.ShloMosaic.ValueIdx Cert.Lpc

/-- The shape 256 × 8000 × n. -/
abbrev Sh (n : ℕ) : Shape := ⟨3, ![256, 8000, n]⟩

/-- The scalar shape. -/
abbrev Sh0 : Shape := ⟨0, ![]⟩

/-- Row (b, t) of an array of last extent n at a natural position (zero from n on). -/
def rd3 {n : ℕ} (v : FVec Ideal (Sh n) .f32) (b : Fin 256) (t : Fin 8000) : ℕ → EReal :=
  fun c => if h : c < n then v (ix3 b t ⟨c, h⟩) else 0

theorem rd3_lt {n : ℕ} (v : FVec Ideal (Sh n) .f32) (b : Fin 256) (t : Fin 8000) {c : ℕ} (h : c < n) :
    rd3 v b t c = v (ix3 b t ⟨c, h⟩) := dif_pos h

theorem rd3_ge {n : ℕ} (v : FVec Ideal (Sh n) .f32) (b : Fin 256) (t : Fin 8000) {c : ℕ} (h : n ≤ c) :
    rd3 v b t c = 0 := dif_neg (Nat.not_lt.2 h)

/-- At last extent sixteen the reader is the specification's row. -/
theorem rd3_eq_rowOf (X : FVec Ideal (Sh 16) .f32) (b : Fin 256) (t : Fin 8000) : rd3 X b t = rowOf X b t := rfl

/-- A slice along the last axis reads the operand its offset further on. -/
theorem slice_apply {N n : ℕ} (o : ℕ) (X : FVec Ideal (Sh N) .f32) (h : (Sh N).Slices ![0, 0, o] (Sh n))
    (b : Fin 256) (t : Fin 8000) (c : Fin n) (hc : o + c.val < N) :
    extractStridedSlice (Sh n) ![0, 0, o] X h (ix3 b t c) = X (ix3 b t ⟨o + c.val, hc⟩) :=
  extractStridedSlice_apply _ X h _ _ fun a => by
    match a with
    | ⟨0, _⟩ => show b.val = 0 + b.val; omega
    | ⟨1, _⟩ => show t.val = 0 + t.val; omega
    | ⟨2, _⟩ => rfl

/-- A broadcast from last extent one reads position zero of the row. -/
theorem bcast1_apply {n : ℕ} (hb : (Sh 1).BroadcastsInDim (Sh n) ![0, 1, 2]) (x : FVec Ideal (Sh 1) .f32)
    (b : Fin 256) (t : Fin 8000) (c : Fin n) :
    broadcastInDim (Sh n) ![0, 1, 2] hb x (ix3 b t c) = x (ix3 b t ⟨0, Nat.one_pos⟩) :=
  broadcastInDim_apply _ hb x _ _ fun a => by
    match a with
    | ⟨0, _⟩ => exact (if_neg (show ¬ (256 : ℕ) = 1 by decide)).symm
    | ⟨1, _⟩ => exact (if_neg (show ¬ (8000 : ℕ) = 1 by decide)).symm
    | ⟨2, _⟩ => exact (if_pos rfl).symm

/-- A reversal of the last axis reads the mirrored position. -/
theorem reverse_apply {n : ℕ} (x : FVec Ideal (Sh n) .f32) (b : Fin 256) (t : Fin 8000) (c : Fin n) :
    Host.reverse [2] x (ix3 b t c) = x (ix3 b t c.rev) := by
  unfold Host.reverse
  refine congrArg x (funext fun a => ?_)
  match a with
  | ⟨0, _⟩ => exact if_neg fun h => absurd (congrArg Fin.val (List.mem_singleton.1 h)) (show ¬ (0 : ℕ) = 2 by decide)
  | ⟨1, _⟩ => exact if_neg fun h => absurd (congrArg Fin.val (List.mem_singleton.1 h)) (show ¬ (1 : ℕ) = 2 by decide)
  | ⟨2, _⟩ => exact if_pos (List.mem_singleton.2 (Fin.ext rfl))

/-- The scalar constant broadcast to last extent one reads the float one. -/
theorem one_apply (hb0 : Sh0.BroadcastsInDim (Sh 1) ![]) (j : (Sh 1).Idx) :
    broadcastInDim (Sh 1) ![] hb0 (constant (F := Ideal) Sh0 .f32 0x3F800000#32) j = one :=
  broadcastInDim_scalar_apply hb0 _ j

/-- A two-piece concatenation along the last axis, at a position in the first piece. -/
theorem concat_left {k k' : ℕ} (hcat : Shape.Concatenates [Sh k, Sh k'] (Sh 16) 2) (x₁ : FVec Ideal (Sh k) .f32)
    (x₂ : FVec Ideal (Sh k') .f32) (b : Fin 256) (t : Fin 8000) (c : Fin 16) (hc : c.val < k) :
    concatenate (Sh 16) 2 [⟨Sh k, x₁⟩, ⟨Sh k', x₂⟩] hcat (ix3 b t c) = x₁ (ix3 b t ⟨c.val, hc⟩) :=
  concatenate_pair_apply_left 2 x₁ x₂ hcat _ rfl _ fun a => by
    match a with
    | ⟨0, _⟩ => rfl
    | ⟨1, _⟩ => rfl
    | ⟨2, _⟩ => rfl

/-- A two-piece concatenation along the last axis, at a position in the second piece. -/
theorem concat_right {k k' : ℕ} (hcat : Shape.Concatenates [Sh k, Sh k'] (Sh 16) 2) (x₁ : FVec Ideal (Sh k) .f32)
    (x₂ : FVec Ideal (Sh k') .f32) (b : Fin 256) (t : Fin 8000) (c : Fin 16) (hc : k ≤ c.val) (hc' : c.val - k < k') :
    concatenate (Sh 16) 2 [⟨Sh k, x₁⟩, ⟨Sh k', x₂⟩] hcat (ix3 b t c) = x₂ (ix3 b t ⟨c.val - k, hc'⟩) :=
  concatenate_pair_apply_right 2 x₁ x₂ hcat _ rfl rfl _
    (fun a ha => by
      match a with
      | ⟨0, _⟩ => rfl
      | ⟨1, _⟩ => rfl
      | ⟨2, _⟩ => exact absurd rfl ha)
    (by show (c.val - k) + k = c.val; omega)

/-- A slice along the last axis at a position inside it, as the operand's row read its offset further on. -/
theorem slice_rd {N n : ℕ} (o : ℕ) (X : FVec Ideal (Sh N) .f32) (h : (Sh N).Slices ![0, 0, o] (Sh n))
    (b : Fin 256) (t : Fin 8000) (c : ℕ) (hc : c < n) (hN : o + n ≤ N) :
    extractStridedSlice (Sh n) ![0, 0, o] X h (ix3 b t ⟨c, hc⟩) = rd3 X b t (o + c) :=
  (slice_apply o X h b t ⟨c, hc⟩ (by show o + c < N; omega)).trans (rd3_lt X b t _).symm

/-- The reflection coefficient of a step with k coefficients left — the first entry of the tail that starts at
    position k — is the row's entry k. -/
theorem coef_apply (k k' : ℕ) (hB : (Sh 16).Slices ![0, 0, k] (Sh k')) (hK : (Sh k').Slices ![0, 0, 0] (Sh 1))
    (X : FVec Ideal (Sh 16) .f32) (b : Fin 256) (t : Fin 8000) (hk1 : 0 < k') (hk : k + k' ≤ 16) :
    extractStridedSlice (Sh 1) ![0, 0, 0] (extractStridedSlice (Sh k') ![0, 0, k] X hB) hK (ix3 b t ⟨0, Nat.one_pos⟩)
      = rd3 X b t k :=
  (slice_rd 0 _ hK b t 0 Nat.one_pos (by omega)).trans
    ((rd3_lt _ b t hk1).trans (slice_rd k X hB b t 0 hk1 hk))

/-- The mirror image of the first k entries, at a position c below k, is the row's entry k − 1 − c. -/
theorem mirror_apply (k : ℕ) (hA : (Sh 16).Slices ![0, 0, 0] (Sh k)) (X : FVec Ideal (Sh 16) .f32)
    (b : Fin 256) (t : Fin 8000) (c : ℕ) (hc : c < k) (hk : k ≤ 16) :
    Host.reverse [2] (extractStridedSlice (Sh k) ![0, 0, 0] X hA) (ix3 b t ⟨c, hc⟩) = rd3 X b t (k - 1 - c) := by
  have hv : (Fin.rev (⟨c, hc⟩ : Fin k)).val = k - 1 - c := by rw [Fin.val_rev]; show k - (c + 1) = k - 1 - c; omega
  refine (reverse_apply _ b t ⟨c, hc⟩).trans ?_
  refine (slice_rd 0 X hA b t (Fin.rev (⟨c, hc⟩ : Fin k)).val (Fin.rev (⟨c, hc⟩ : Fin k)).isLt (by omega)).trans ?_
  rw [hv, Nat.zero_add]

/-! ## The three shapes of a step's term

The reference spells a step with k coefficients left as a concatenation of the updated first k entries and the
untouched tail. The first step's tail is the coefficient itself; a middle step takes the coefficient as the first entry
of the tail; the last step, whose updated part has one entry, needs no broadcast of the coefficient. Each is defined
here over an arbitrary previous state X and read, at every position of a row, as rowStep k of X's row. -/

/-- The first step's term (fifteen coefficients left). -/
def firstTerm (hA : (Sh 16).Slices ![0, 0, 0] (Sh 15)) (hB : (Sh 16).Slices ![0, 0, 15] (Sh 1))
    (hb : (Sh 1).BroadcastsInDim (Sh 15) ![0, 1, 2]) (hb0 : Sh0.BroadcastsInDim (Sh 1) ![])
    (hcat : Shape.Concatenates [Sh 15, Sh 1] (Sh 16) 2) (X : FVec Ideal (Sh 16) .f32) : FVec Ideal (Sh 16) .f32 :=
  concatenate (Sh 16) 2
    [⟨Sh 15, Host.divf (F := Ideal)
        (subf (extractStridedSlice (Sh 15) ![0, 0, 0] X hA)
          (mulf (broadcastInDim (Sh 15) ![0, 1, 2] hb (extractStridedSlice (Sh 1) ![0, 0, 15] X hB))
            (Host.reverse [2] (extractStridedSlice (Sh 15) ![0, 0, 0] X hA))))
        (broadcastInDim (Sh 15) ![0, 1, 2] hb
          (subf (broadcastInDim (Sh 1) ![] hb0 (constant (F := Ideal) Sh0 .f32 0x3F800000#32))
            (mulf (extractStridedSlice (Sh 1) ![0, 0, 15] X hB) (extractStridedSlice (Sh 1) ![0, 0, 15] X hB))))⟩,
     ⟨Sh 1, extractStridedSlice (Sh 1) ![0, 0, 15] X hB⟩] hcat

/-- A middle step's term (k coefficients left, k' = 16 − k entries in the tail). -/
def midTerm (k k' : ℕ) (hA : (Sh 16).Slices ![0, 0, 0] (Sh k)) (hB : (Sh 16).Slices ![0, 0, k] (Sh k'))
    (hK : (Sh k').Slices ![0, 0, 0] (Sh 1)) (hb : (Sh 1).BroadcastsInDim (Sh k) ![0, 1, 2])
    (hb0 : Sh0.BroadcastsInDim (Sh 1) ![]) (hcat : Shape.Concatenates [Sh k, Sh k'] (Sh 16) 2)
    (X : FVec Ideal (Sh 16) .f32) : FVec Ideal (Sh 16) .f32 :=
  concatenate (Sh 16) 2
    [⟨Sh k, Host.divf (F := Ideal)
        (subf (extractStridedSlice (Sh k) ![0, 0, 0] X hA)
          (mulf (broadcastInDim (Sh k) ![0, 1, 2] hb
              (extractStridedSlice (Sh 1) ![0, 0, 0] (extractStridedSlice (Sh k') ![0, 0, k] X hB) hK))
            (Host.reverse [2] (extractStridedSlice (Sh k) ![0, 0, 0] X hA))))
        (broadcastInDim (Sh k) ![0, 1, 2] hb
          (subf (broadcastInDim (Sh 1) ![] hb0 (constant (F := Ideal) Sh0 .f32 0x3F800000#32))
            (mulf (extractStridedSlice (Sh 1) ![0, 0, 0] (extractStridedSlice (Sh k') ![0, 0, k] X hB) hK)
              (extractStridedSlice (Sh 1) ![0, 0, 0] (extractStridedSlice (Sh k') ![0, 0, k] X hB) hK))))⟩,
     ⟨Sh k', extractStridedSlice (Sh k') ![0, 0, k] X hB⟩] hcat

/-- The last step's term (one coefficient left). -/
def lastTerm (hA : (Sh 16).Slices ![0, 0, 0] (Sh 1)) (hB : (Sh 16).Slices ![0, 0, 1] (Sh 15))
    (hK : (Sh 15).Slices ![0, 0, 0] (Sh 1)) (hb0 : Sh0.BroadcastsInDim (Sh 1) ![])
    (hcat : Shape.Concatenates [Sh 1, Sh 15] (Sh 16) 2) (X : FVec Ideal (Sh 16) .f32) : FVec Ideal (Sh 16) .f32 :=
  concatenate (Sh 16) 2
    [⟨Sh 1, Host.divf (F := Ideal)
        (subf (extractStridedSlice (Sh 1) ![0, 0, 0] X hA)
          (mulf (extractStridedSlice (Sh 1) ![0, 0, 0] (extractStridedSlice (Sh 15) ![0, 0, 1] X hB) hK)
            (Host.reverse [2] (extractStridedSlice (Sh 1) ![0, 0, 0] X hA))))
        (subf (broadcastInDim (Sh 1) ![] hb0 (constant (F := Ideal) Sh0 .f32 0x3F800000#32))
          (mulf (extractStridedSlice (Sh 1) ![0, 0, 0] (extractStridedSlice (Sh 15) ![0, 0, 1] X hB) hK)
            (extractStridedSlice (Sh 1) ![0, 0, 0] (extractStridedSlice (Sh 15) ![0, 0, 1] X hB) hK)))⟩,
     ⟨Sh 15, extractStridedSlice (Sh 15) ![0, 0, 1] X hB⟩] hcat

/-- A position of the tail reads the previous state's entry there. -/
theorem tail_apply (k k' : ℕ) (hk : k + k' = 16) (hB : (Sh 16).Slices ![0, 0, k] (Sh k'))
    (hcat : Shape.Concatenates [Sh k, Sh k'] (Sh 16) 2) (x₁ : FVec Ideal (Sh k) .f32) (X : FVec Ideal (Sh 16) .f32)
    (b : Fin 256) (t : Fin 8000) (c : Fin 16) (hc : k ≤ c.val) :
    concatenate (Sh 16) 2 [⟨Sh k, x₁⟩, ⟨Sh k', extractStridedSlice (Sh k') ![0, 0, k] X hB⟩] hcat (ix3 b t c)
      = rd3 X b t c.val := by
  have hlt := c.isLt
  refine (concat_right hcat _ _ b t c hc (by omega)).trans ?_
  refine (slice_rd k X hB b t (c.val - k) (by omega) (by omega)).trans ?_
  exact congrArg (rd3 X b t) (by omega)

/-- A middle step's term at a position of a row is one step of the row recursion. -/
theorem midTerm_apply (k k' : ℕ) (hk : k + k' = 16) (hk1 : 0 < k') (hA : (Sh 16).Slices ![0, 0, 0] (Sh k))
    (hB : (Sh 16).Slices ![0, 0, k] (Sh k')) (hK : (Sh k').Slices ![0, 0, 0] (Sh 1))
    (hb : (Sh 1).BroadcastsInDim (Sh k) ![0, 1, 2]) (hb0 : Sh0.BroadcastsInDim (Sh 1) ![])
    (hcat : Shape.Concatenates [Sh k, Sh k'] (Sh 16) 2) (X : FVec Ideal (Sh 16) .f32)
    (b : Fin 256) (t : Fin 8000) (c : Fin 16) :
    midTerm k k' hA hB hK hb hb0 hcat X (ix3 b t c) = rowStep k (rd3 X b t) c.val := by
  have hKI := coef_apply k k' hB hK X b t hk1 (by omega)
  unfold midTerm
  by_cases hc : c.val < k
  · rw [rowStep_lt _ hc]
    refine (concat_left hcat _ _ b t c hc).trans ?_
    rw [hostDivf_apply, subf_apply, mulf_apply, bcast1_apply, bcast1_apply, subf_apply, mulf_apply, one_apply, hKI,
      mirror_apply k hA X b t c.val hc (by omega), slice_rd 0 X hA b t c.val hc (by omega), Nat.zero_add]
  · rw [rowStep_ge _ (Nat.not_lt.1 hc)]
    exact tail_apply k k' hk hB hcat _ X b t c (Nat.not_lt.1 hc)

/-- The first step's term at a position of a row is the step with fifteen coefficients left. -/
theorem firstTerm_apply (hA : (Sh 16).Slices ![0, 0, 0] (Sh 15)) (hB : (Sh 16).Slices ![0, 0, 15] (Sh 1))
    (hb : (Sh 1).BroadcastsInDim (Sh 15) ![0, 1, 2]) (hb0 : Sh0.BroadcastsInDim (Sh 1) ![])
    (hcat : Shape.Concatenates [Sh 15, Sh 1] (Sh 16) 2) (X : FVec Ideal (Sh 16) .f32)
    (b : Fin 256) (t : Fin 8000) (c : Fin 16) :
    firstTerm hA hB hb hb0 hcat X (ix3 b t c) = rowStep 15 (rd3 X b t) c.val := by
  have hKI : extractStridedSlice (Sh 1) ![0, 0, 15] X hB (ix3 b t ⟨0, Nat.one_pos⟩) = rd3 X b t 15 :=
    slice_rd 15 X hB b t 0 Nat.one_pos (by omega)
  unfold firstTerm
  by_cases hc : c.val < 15
  · rw [rowStep_lt _ hc]
    refine (concat_left hcat _ _ b t c hc).trans ?_
    rw [hostDivf_apply, subf_apply, mulf_apply, bcast1_apply, bcast1_apply, subf_apply, mulf_apply, one_apply, hKI,
      mirror_apply 15 hA X b t c.val hc (by omega), slice_rd 0 X hA b t c.val hc (by omega), Nat.zero_add]
  · rw [rowStep_ge _ (Nat.not_lt.1 hc)]
    exact tail_apply 15 1 rfl hB hcat _ X b t c (Nat.not_lt.1 hc)

/-- The last step's term at a position of a row is the step with one coefficient left. -/
theorem lastTerm_apply (hA : (Sh 16).Slices ![0, 0, 0] (Sh 1)) (hB : (Sh 16).Slices ![0, 0, 1] (Sh 15))
    (hK : (Sh 15).Slices ![0, 0, 0] (Sh 1)) (hb0 : Sh0.BroadcastsInDim (Sh 1) ![])
    (hcat : Shape.Concatenates [Sh 1, Sh 15] (Sh 16) 2) (X : FVec Ideal (Sh 16) .f32)
    (b : Fin 256) (t : Fin 8000) (c : Fin 16) :
    lastTerm hA hB hK hb0 hcat X (ix3 b t c) = rowStep 1 (rd3 X b t) c.val := by
  unfold lastTerm
  by_cases hc : c.val < 1
  · have hKI : extractStridedSlice (Sh 1) ![0, 0, 0] (extractStridedSlice (Sh 15) ![0, 0, 1] X hB) hK
        (ix3 b t ⟨c.val, hc⟩) = rd3 X b t 1 :=
      (slice_rd 0 _ hK b t c.val hc (by omega)).trans
        ((rd3_lt _ b t (show 0 + c.val < 15 by omega)).trans
          ((slice_rd 1 X hB b t (0 + c.val) (by omega) (by omega)).trans (congrArg (rd3 X b t) (by omega))))
    rw [rowStep_lt _ hc]
    refine (concat_left hcat _ _ b t c hc).trans ?_
    rw [hostDivf_apply, subf_apply, mulf_apply, subf_apply, mulf_apply, one_apply, hKI,
      mirror_apply 1 hA X b t c.val hc (by omega), slice_rd 0 X hA b t c.val hc (by omega), Nat.zero_add]
  · rw [rowStep_ge _ (Nat.not_lt.1 hc)]
    exact tail_apply 1 15 rfl hB hcat _ X b t c (Nat.not_lt.1 hc)

/-! ## A step's term, row by row

An array that reads as rowStep k of another's row at the sixteen positions reads so at EVERY natural position:
from sixteen on both sides are zero (a step keeps the entries from k on). -/

theorem rd3_step (k : ℕ) (hk : k ≤ 16) (Y X : FVec Ideal (Sh 16) .f32) (b : Fin 256) (t : Fin 8000)
    (h : ∀ c : Fin 16, Y (ix3 b t c) = rowStep k (rd3 X b t) c.val) : rd3 Y b t = rowStep k (rd3 X b t) := by
  funext c
  by_cases hc : c < 16
  · exact (rd3_lt Y b t hc).trans (h ⟨c, hc⟩)
  · rw [rd3_ge Y b t (Nat.not_lt.1 hc), rowStep_ge _ (show k ≤ c by omega), rd3_ge X b t (Nat.not_lt.1 hc)]

theorem rd3_firstTerm (hA : (Sh 16).Slices ![0, 0, 0] (Sh 15)) (hB : (Sh 16).Slices ![0, 0, 15] (Sh 1))
    (hb : (Sh 1).BroadcastsInDim (Sh 15) ![0, 1, 2]) (hb0 : Sh0.BroadcastsInDim (Sh 1) ![])
    (hcat : Shape.Concatenates [Sh 15, Sh 1] (Sh 16) 2) (X : FVec Ideal (Sh 16) .f32) (b : Fin 256) (t : Fin 8000) :
    rd3 (firstTerm hA hB hb hb0 hcat X) b t = rowStep 15 (rd3 X b t) :=
  rd3_step 15 (by omega) _ X b t (firstTerm_apply hA hB hb hb0 hcat X b t)

theorem rd3_midTerm (k k' : ℕ) (hk : k + k' = 16) (hk1 : 0 < k') (hA : (Sh 16).Slices ![0, 0, 0] (Sh k))
    (hB : (Sh 16).Slices ![0, 0, k] (Sh k')) (hK : (Sh k').Slices ![0, 0, 0] (Sh 1))
    (hb : (Sh 1).BroadcastsInDim (Sh k) ![0, 1, 2]) (hb0 : Sh0.BroadcastsInDim (Sh 1) ![])
    (hcat : Shape.Concatenates [Sh k, Sh k'] (Sh 16) 2) (X : FVec Ideal (Sh 16) .f32) (b : Fin 256) (t : Fin 8000) :
    rd3 (midTerm k k' hA hB hK hb hb0 hcat X) b t = rowStep k (rd3 X b t) :=
  rd3_step k (by omega) _ X b t (midTerm_apply k k' hk hk1 hA hB hK hb hb0 hcat X b t)

theorem rd3_lastTerm (hA : (Sh 16).Slices ![0, 0, 0] (Sh 1)) (hB : (Sh 16).Slices ![0, 0, 1] (Sh 15))
    (hK : (Sh 15).Slices ![0, 0, 0] (Sh 1)) (hb0 : Sh0.BroadcastsInDim (Sh 1) ![])
    (hcat : Shape.Concatenates [Sh 1, Sh 15] (Sh 16) 2) (X : FVec Ideal (Sh 16) .f32) (b : Fin 256) (t : Fin 8000) :
    rd3 (lastTerm hA hB hK hb0 hcat X) b t = rowStep 1 (rd3 X b t) :=
  rd3_step 1 (by omega) _ X b t (lastTerm_apply hA hB hK hb0 hcat X b t)

/-- Fifteen steps, written out. -/
theorem rowAfter_fifteen (r : ℕ → EReal) :
    rowAfter 15 r = rowStep 1 (rowStep 2 (rowStep 3 (rowStep 4 (rowStep 5 (rowStep 6 (rowStep 7 (rowStep 8 (rowStep 9
      (rowStep 10 (rowStep 11 (rowStep 12 (rowStep 13 (rowStep 14 (rowStep 15 r)))))))))))))) := rfl

end Cert.ReferenceIdeal.RefValue

end
-- ==== Proof.RefValue.lean ====
/-
  The reference's result array, read at an index.

  The reference unrolls the fifteen steps of the recursion. After the step with k coefficients left its state is a
  concatenation along the last axis of the updated first k entries and the untouched tail, and the next step slices that
  state again. Read row by row at a natural position, each state is one rowStep of the previous state's row (the three
  shapes of term read in RefValueRead: the first step, the thirteen middle steps at k = 14, …, 2, the last step).
  Chained from the argument array, the last state's row is the argument's row after the fifteen steps, which is what
  the specification G says of every row; the argument array is left as it was.
-/
import proofs.«153034_j86260123174591_1_alg».proof.Proof.Gen.ReferenceIdeal.Run
import proofs.«153034_j86260123174591_1_alg».proof.Proof.RowSpec
import proofs.«153034_j86260123174591_1_alg».proof.Proof.RefValueRead
import Idealize.ShloMosaic.Lib.ValueIdx
import Idealize.ShloMosaic.Lib.Pipeline.Value

noncomputable section

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.Lpc

section Rows

variable (V0 : Valuation τ sig (Elt Ideal)) (b : Fin 256) (t : Fin 8000)

/-- The state after the first step (fifteen coefficients left), row by row. -/
theorem row_v11 : rd3 (n := 16) (Value.res_main_v11 V0) b t
    = rowStep 15 (rd3 (n := 16) (V0 (Proc.devRef .tc main_arg0)) b t) :=
  rd3_firstTerm _ _ _ _ _ _ b t

/-- The state after the step with 14 coefficients left, row by row. -/
theorem row_v24 : rd3 (n := 16) (Value.res_main_v24 V0) b t = rowStep 14 (rd3 (n := 16) (Value.res_main_v11 V0) b t) :=
  rd3_midTerm 14 2 rfl (by decide) _ _ _ _ _ _ _ b t

/-- The state after the step with 13 coefficients left, row by row. -/
theorem row_v37 : rd3 (n := 16) (Value.res_main_v37 V0) b t = rowStep 13 (rd3 (n := 16) (Value.res_main_v24 V0) b t) :=
  rd3_midTerm 13 3 rfl (by decide) _ _ _ _ _ _ _ b t

/-- The state after the step with 12 coefficients left, row by row. -/
theorem row_v50 : rd3 (n := 16) (Value.res_main_v50 V0) b t = rowStep 12 (rd3 (n := 16) (Value.res_main_v37 V0) b t) :=
  rd3_midTerm 12 4 rfl (by decide) _ _ _ _ _ _ _ b t

/-- The state after the step with 11 coefficients left, row by row. -/
theorem row_v63 : rd3 (n := 16) (Value.res_main_v63 V0) b t = rowStep 11 (rd3 (n := 16) (Value.res_main_v50 V0) b t) :=
  rd3_midTerm 11 5 rfl (by decide) _ _ _ _ _ _ _ b t

/-- The state after the step with 10 coefficients left, row by row. -/
theorem row_v76 : rd3 (n := 16) (Value.res_main_v76 V0) b t = rowStep 10 (rd3 (n := 16) (Value.res_main_v63 V0) b t) :=
  rd3_midTerm 10 6 rfl (by decide) _ _ _ _ _ _ _ b t

/-- The state after the step with 9 coefficients left, row by row. -/
theorem row_v89 : rd3 (n := 16) (Value.res_main_v89 V0) b t = rowStep 9 (rd3 (n := 16) (Value.res_main_v76 V0) b t) :=
  rd3_midTerm 9 7 rfl (by decide) _ _ _ _ _ _ _ b t

/-- The state after the step with 8 coefficients left, row by row. -/
theorem row_v102 : rd3 (n := 16) (Value.res_main_v102 V0) b t = rowStep 8 (rd3 (n := 16) (Value.res_main_v89 V0) b t) :=
  rd3_midTerm 8 8 rfl (by decide) _ _ _ _ _ _ _ b t

/-- The state after the step with 7 coefficients left, row by row. -/
theorem row_v115 : rd3 (n := 16) (Value.res_main_v115 V0) b t = rowStep 7 (rd3 (n := 16) (Value.res_main_v102 V0) b t) :=
  rd3_midTerm 7 9 rfl (by decide) _ _ _ _ _ _ _ b t

/-- The state after the step with 6 coefficients left, row by row. -/
theorem row_v128 : rd3 (n := 16) (Value.res_main_v128 V0) b t = rowStep 6 (rd3 (n := 16) (Value.res_main_v115 V0) b t) :=
  rd3_midTerm 6 10 rfl (by decide) _ _ _ _ _ _ _ b t

/-- The state after the step with 5 coefficients left, row by row. -/
theorem row_v141 : rd3 (n := 16) (Value.res_main_v141 V0) b t = rowStep 5 (rd3 (n := 16) (Value.res_main_v128 V0) b t) :=
  rd3_midTerm 5 11 rfl (by decide) _ _ _ _ _ _ _ b t

/-- The state after the step with 4 coefficients left, row by row. -/
theorem row_v154 : rd3 (n := 16) (Value.res_main_v154 V0) b t = rowStep 4 (rd3 (n := 16) (Value.res_main_v141 V0) b t) :=
  rd3_midTerm 4 12 rfl (by decide) _ _ _ _ _ _ _ b t

/-- The state after the step with 3 coefficients left, row by row. -/
theorem row_v167 : rd3 (n := 16) (Value.res_main_v167 V0) b t = rowStep 3 (rd3 (n := 16) (Value.res_main_v154 V0) b t) :=
  rd3_midTerm 3 13 rfl (by decide) _ _ _ _ _ _ _ b t

/-- The state after the step with 2 coefficients left, row by row. -/
theorem row_v180 : rd3 (n := 16) (Value.res_main_v180 V0) b t = rowStep 2 (rd3 (n := 16) (Value.res_main_v167 V0) b t) :=
  rd3_midTerm 2 14 rfl (by decide) _ _ _ _ _ _ _ b t

end Rows

/-- The reference's last term — the step with one coefficient left, over the state before it — is G of the argument
    array: at the index (b, t, c) it is the last step of row (b, t), and the fourteen states before it unwind to the
    argument's row. -/
theorem result_eq (V0 : Valuation τ sig (Elt Ideal)) :
    lastTerm slices_S256x8000x16_S256x8000x1_0_0_0 slices_S256x8000x16_S256x8000x15_0_0_1
      slices_S256x8000x15_S256x8000x1_0_0_0 bcast_S_S256x8000x1 concatenates_S256x8000x1_S256x8000x15_S256x8000x16_d2
      (Value.res_main_v180 V0) = G (V0 (Proc.devRef .tc main_arg0)) := by
  funext i
  obtain ⟨b, t, c, rfl⟩ : ∃ (b : Fin 256) (t : Fin 8000) (c : Fin 16), i = ix3 b t c := ⟨i 0, i 1, i 2, eq_ix3 i⟩
  refine (lastTerm_apply _ _ _ _ _ _ b t c).trans ?_
  rw [G_apply, rowAfter_fifteen, row_v180, row_v167, row_v154, row_v141, row_v128, row_v115, row_v102, row_v89, row_v76,
    row_v63, row_v50, row_v37, row_v24, row_v11]
  rfl

/-- The idealized reference's run: the result array ends at G of the argument array, the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v191) = Cert.Lpc.G (m ((c.tc : Thread nD τ).loc main_arg0))
      ∧ r.2.mem ((c.tc : Thread nD τ).loc main_arg0) = m ((c.tc : Thread nD τ).loc main_arg0)) :=
  (θ_run (defs (F := Ideal)) _ _).mono
    (fun _ h c => ⟨(h c).1.trans (result_eq (launchContents m c)), (h c).2⟩)
    (Cert.ReferenceIdeal.Value.run (F := Ideal) m ρ)

end Cert.ReferenceIdeal.RefValue

end
-- ==== Proof.lean ====
/-
  The certificate that the Pallas kernel converting linear-prediction coefficients to reflection coefficients computes,
  over the extended reals, what its jnp reference computes.

  Both programs run the same fifteen steps on every row of sixteen coefficients (`Cert.Lpc.rowStep`, Proof/RowSpec.lean):
  the kernel on `8192 × 16` blocks it transposes in place, step by step on all the block's rows at once, the reference
  on the whole `256 × 8000 × 16` array by slicing, reversing and concatenating along the last axis. Each side's result
  array is shown to be `Cert.Lpc.G` of the argument array — Proof/KernelBody.lean reads one stored block at an index,
  Proof/KernelArray.lean carries the blocks to the array and through the two reshapes around the call,
  Proof/RefValue.lean reads the reference's run at an index — and the two runs, from memories that agree on the argument,
  then end at the same array. The idealization rewrote nothing, so `preserves` is trivial; the three frames are the
  generated frame certificates and the reference's generated run.
-/
import proofs.«153034_j86260123174591_1_alg».proof.Defs
import proofs.«153034_j86260123174591_1_alg».proof.Proof.Gen.Kernel
import proofs.«153034_j86260123174591_1_alg».proof.Proof.Gen.Kernel.Skeleton
import proofs.«153034_j86260123174591_1_alg».proof.Proof.Gen.Kernel.Launch
import proofs.«153034_j86260123174591_1_alg».proof.Proof.Gen.Kernel.Points
import proofs.«153034_j86260123174591_1_alg».proof.Proof.Gen.Kernel.Frame
import proofs.«153034_j86260123174591_1_alg».proof.Proof.Gen.KernelIdeal
import proofs.«153034_j86260123174591_1_alg».proof.Proof.Gen.KernelIdeal.Skeleton
import proofs.«153034_j86260123174591_1_alg».proof.Proof.Gen.KernelIdeal.Launch
import proofs.«153034_j86260123174591_1_alg».proof.Proof.Gen.KernelIdeal.Points
import proofs.«153034_j86260123174591_1_alg».proof.Proof.Gen.KernelIdeal.Frame
import proofs.«153034_j86260123174591_1_alg».proof.Proof.Gen.ReferenceIdeal
import proofs.«153034_j86260123174591_1_alg».proof.Proof.Gen.ReferenceIdeal.Run
import proofs.«153034_j86260123174591_1_alg».proof.Proof.Gen.Pre_finite_inputs
import proofs.«153034_j86260123174591_1_alg».proof.Proof.KernelArray
import proofs.«153034_j86260123174591_1_alg».proof.Proof.RefValue
import Idealize.ShloMosaic.Adequacy
import Idealize.ShloMosaic.Init

noncomputable section

namespace Cert.Proof

open Idealize.ShloMosaic Idealize.SL.Sem Cert.Kernel

/-- The word-level kernel runs and keeps its argument: its generated frame certificate. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its argument: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the argument both runs end at `G` of that argument. -/
theorem algebraic : Cert.algebraic_KernelIdeal_ReferenceIdeal := by
  intro m ρ m' ρ' _ hagree
  refine ⟨fun c => Cert.Lpc.G (m ((c.tc : Thread Cert.KernelIdeal.nD Cert.KernelIdeal.τ).loc Cert.KernelIdeal.main_arg0)),
    Cert.KernelIdeal.ArrayValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
